-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S2x800000 32) (main_v33 : IVec S_ 1) : IVec S_ 1 :=
  let main_v34 : IVec S1x800000 32 := (extractStridedSlice S1x800000 ![0, 0] · slices_S2x800000_S1x800000_0_0) main_arg7
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg7
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg4 : FVec F S128 .f32) (main_arg5 : FVec F S128x128 .f32) (main_arg6 : FVec F S128 .f32) (main_arg7 : IVec S2x800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x800000 32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S8000x128 : Shape := ⟨2, ![8000, 128]⟩

abbrev nBuf : Space → Nat
  | .hbm => 175
  | .vmem => 24
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x800000, .i32⟩
  | 8 => ⟨S2x800000, .i32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x128, .f32⟩
  | 32 => ⟨S800000x128, .i1⟩
  | 33 => ⟨S_, .f32⟩
  | 34 => ⟨S800000x128, .f32⟩
  | 35 => ⟨S800000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S1, .i32⟩
  | 45 => ⟨S_, .i32⟩
  | 46 => ⟨S800000x1, .i32⟩
  | 47 => ⟨S800000x1, .i1⟩
  | 48 => ⟨S1x1, .i32⟩
  | 49 => ⟨S800000x1, .i32⟩
  | 50 => ⟨S800000x1, .i1⟩
  | 51 => ⟨S800000x1, .i1⟩
  | 52 => ⟨S_, .i1⟩
  | 53 => ⟨S800000, .i1⟩
  | 54 => ⟨S800000x128, .f32⟩
  | 55 => ⟨S800000x128, .i1⟩
  | 56 => ⟨S_, .f32⟩
  | 57 => ⟨S800000x128, .f32⟩
  | 58 => ⟨S800000x128, .f32⟩
  | 59 => ⟨S128x128, .f32⟩
  | 60 => ⟨S128x128, .bf16⟩
  | 61 => ⟨S1x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x128, .f32⟩
  | 86 => ⟨S800000x128, .i1⟩
  | 87 => ⟨S_, .f32⟩
  | 88 => ⟨S800000x128, .f32⟩
  | 89 => ⟨S800000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x128, .f32⟩
  | 109 => ⟨S800000x128, .i1⟩
  | 110 => ⟨S_, .f32⟩
  | 111 => ⟨S800000x128, .f32⟩
  | 112 => ⟨S800000x128, .f32⟩
  | 113 => ⟨S128x128, .f32⟩
  | 114 => ⟨S128x128, .bf16⟩
  | 115 => ⟨S1x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S1, .i32⟩
  | 2 => ⟨S_, .i32⟩
  | 3 => ⟨S800000x1, .i32⟩
  | 4 => ⟨S800000x1, .i1⟩
  | 5 => ⟨S1x1, .i32⟩
  | 6 => ⟨S800000x1, .i32⟩
  | 7 => ⟨S800000x1, .i1⟩
  | 8 => ⟨S800000x1, .i1⟩
  | 9 => ⟨S_, .i1⟩
  | 10 => ⟨S800000, .i1⟩
  | 11 => ⟨S800000x128, .f32⟩
  | 12 => ⟨S800000x128, .i1⟩
  | 13 => ⟨S_, .f32⟩
  | 14 => ⟨S800000x128, .f32⟩
  | 15 => ⟨S800000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S128x128, .f32⟩
  | 40 => ⟨S128x128, .bf16⟩
  | 41 => ⟨S1x128, .f32⟩
  | 42 => ⟨S800000x128, .f32⟩
  | 43 => ⟨S_, .f32⟩
  | 44 => ⟨S50000x128, .f32⟩
  | 45 => ⟨S800000x1, .i32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .bf16⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .bf16⟩
  | .local _ .vmem, ⟨13, _⟩ => ⟨S1x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S128x128, .bf16⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_cst : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v13 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_cst_0 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_call4_cst : Ref sig .tc := ⟨.hbm, 141, rfl⟩
abbrev main_call4_v15 : Ref sig .tc := ⟨.hbm, 142, rfl⟩
abbrev main_v22 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v23 : Ref sig .tc := ⟨.hbm, 166, rfl⟩
abbrev main_v24 : Ref sig .tc := ⟨.hbm, 167, rfl⟩
abbrev main_v25 : Ref sig .tc := ⟨.hbm, 168, rfl⟩
abbrev main_v26 : Ref sig .tc := ⟨.hbm, 169, rfl⟩
abbrev main_v27 : Ref sig .tc := ⟨.hbm, 170, rfl⟩
abbrev main_cst_1 : Ref sig .tc := ⟨.hbm, 171, rfl⟩
abbrev main_v28 : Ref sig .tc := ⟨.hbm, 172, rfl⟩
abbrev main_v29 : Ref sig .tc := ⟨.hbm, 173, rfl⟩
abbrev main_v30 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  transposes_S128x128_S128x128_1_0 : S128x128.Transposes [1, 0] S128x128
  bitsLt_bf16_f32 : FTy.bits .bf16 < FTy.bits .f32
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S800000x128.size a
  hwx2_4 : ∀ i : grid2.Coords, EltTy.bits .f32 = 32 ∨ (Rect.block (s := S800000x128) S8000x128.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x800000, .i32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S128x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S128x128, .f32⟩
  | .hbm, ⟨61, _⟩ => ⟨S800000x128, .f32⟩
  | .hbm, ⟨62, _⟩ => ⟨S1x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S800000x128, .f32⟩
  | .hbm, ⟨88, _⟩ => ⟨S128x128, .f32⟩
  | .hbm, ⟨89, _⟩ => ⟨S800000x128, .f32⟩
  | .hbm, ⟨90, _⟩ => ⟨S1x128, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The pure functions the two programs of this certificate are stated over.

  A graph layer: every edge `e` carries a source and a target node id. The message of edge `e` is the row
  `(h[src e] - h[dst e]) · Wᵀ + b`, and the layer's result at node `n` is the sum of the messages of the edges whose
  target is `n`. Both programs read the node rows through the same `gather` at the same start indices — the id with
  `50000` added when it is negative (`wrap`), as a column (`col`) — and add the messages up by the same scatter-add
  over the raw target ids. One program first replaces a gathered row by a fixed fill row when the wrapped id is
  outside `[0, 49999]` (`takeFill`, the mask `inb`), and forms each message block by block as a product into a zero
  accumulator (`msgArr`: the sum it ends with, index by index); the other forms the messages by one whole product.
  `layerFill` and `layerPlain` are the two layer functions.
-/
import Idealize.ShloMosaic.PureOps
import Idealize.ShloMosaic.PureOps.Contract
import Idealize.ShloMosaic.Lib.ValueIdx

noncomputable section

namespace Cert.Spec

open Idealize.ShloMosaic Idealize.ShloMosaic.ValueIdx

abbrev SN : Shape := ⟨2, ![50000, 128]⟩
abbrev SM : Shape := ⟨2, ![800000, 128]⟩
abbrev SE : Shape := ⟨1, ![800000]⟩
abbrev SC : Shape := ⟨2, ![800000, 1]⟩
abbrev SW : Shape := ⟨2, ![128, 128]⟩
abbrev SB : Shape := ⟨1, ![128]⟩
abbrev SR : Shape := ⟨2, ![1, 128]⟩
abbrev S0 : Shape := ⟨0, ![]⟩
abbrev S1 : Shape := ⟨1, ![1]⟩
abbrev S11 : Shape := ⟨2, ![1, 1]⟩
abbrev SI : Shape := ⟨2, ![2, 800000]⟩
abbrev SI1 : Shape := ⟨2, ![1, 800000]⟩

/-! ## The shape relations the operations take -/

theorem slices0 : SI.Slices ![0, 0] SI1 := by decide
theorem slices1 : SI.Slices ![1, 0] SI1 := by decide
theorem castsE : SI1.ShapeCasts SE := by decide
theorem bc_0_E : S0.BroadcastsInDim SE (![] : Fin 0 → Fin SE.rank) := by decide
theorem bc_E_C : SE.BroadcastsInDim SC (![0] : Fin 1 → Fin SC.rank) := by decide
theorem bc_0_C : S0.BroadcastsInDim SC (![] : Fin 0 → Fin SC.rank) := by decide
theorem bc_1_11 : S1.BroadcastsInDim S11 (![1] : Fin 1 → Fin S11.rank) := by decide
theorem bc_11_C : S11.BroadcastsInDim SC (![0, 1] : Fin 2 → Fin SC.rank) := by decide
theorem red_C_E : SC.ReducesTo [1] SE := by decide
theorem pos0 : 0 < S0.numel := by decide
theorem bc_E_M : SE.BroadcastsInDim SM (![0] : Fin 1 → Fin SM.rank) := by decide
theorem bc_0_M : S0.BroadcastsInDim SM (![] : Fin 0 → Fin SM.rank) := by decide
theorem bc_0_N : S0.BroadcastsInDim SN (![] : Fin 0 → Fin SN.rank) := by decide
theorem transW : SW.Transposes [1, 0] SW := by decide
theorem castsB : SB.ShapeCasts SR := by decide
theorem bc_B_R : SB.BroadcastsInDim SR (![1] : Fin 1 → Fin SR.rank) := by decide
theorem bc_R_M : SR.BroadcastsInDim SM (![0, 1] : Fin 2 → Fin SM.rank) := by decide
theorem gatherWF : GatherDims.WF SN SC SM [1] [0] [] [0] [] 1 ![1, 128] := by decide
theorem scatterWF : ScatterDims.WF SN SC SM [1] [0] [0] 1 := by decide
theorem dotWF : DotDims.WF SM SW SM [1] [0] [0] [1] [] [] := by decide

/-- Whole rows of the node table at the start indices of a column: one row of 128 per edge. -/
def gatherRows : GatherDims SN SC SM where
  offsetDims := [1]
  collapsedSliceDims := [0]
  operandBatchingDims := []
  startIndicesBatchingDims := []
  startIndexMap := [0]
  indexVectorDim := 1
  sliceSizes := ![1, 128]
  wf := gatherWF

/-- Rows of messages added into the node table at the row a column of ids names. -/
def scatterRows : ScatterDims SN SC SM where
  updateWindowDims := [1]
  insertedWindowDims := [0]
  scatterDimsToOperandDims := [0]
  indexVectorDim := 1
  wf := scatterWF

/-- The plain product of an edge-by-feature array with a feature-by-feature matrix. -/
def dotPlain : DotDims SM SW SM where
  lhsContracting := [1]
  rhsContracting := [0]
  lhsNonContracting := [0]
  rhsNonContracting := [1]
  lhsBatch := []
  rhsBatch := []
  wf := dotWF

variable {F : FTy → Type} [FloatOps F]

/-- The edges' source ids: row 0 of the edge list. -/
def srcOf (ei : IVec SI 32) : IVec SE 32 := shapeCast SE (extractStridedSlice SI1 ![0, 0] ei slices0) castsE
/-- The edges' target ids: row 1 of the edge list. -/
def dstOf (ei : IVec SI 32) : IVec SE 32 := shapeCast SE (extractStridedSlice SI1 ![1, 0] ei slices1) castsE

/-- A negative id counts from the end of the table: `50000` is added to it. -/
def wrap (i : IVec SE 32) : IVec SE 32 :=
  select (cmpi .slt i (broadcastInDim SE ![] bc_0_E (constantI S0 32 0#32)))
    (addi i (broadcastInDim SE ![] bc_0_E (constantI S0 32 50000#32))) i

/-- A vector of ids as a column of start indices. -/
def col (i : IVec SE 32) : IVec SC 32 := broadcastInDim SC ![0] bc_E_C i

/-- Per edge: is the start index inside `[0, 49999]`? -/
def inb (w : IVec SC 32) : IVec SE 1 :=
  Host.reduce IntOp.andi
    (andi (cmpi .sge w (broadcastInDim SC ![] bc_0_C (constantI S0 32 0#32)))
      (cmpi .sle w (broadcastInDim SC ![0, 1] bc_11_C (broadcastInDim S11 ![1] bc_1_11 (constantI S1 32 49999#32)))))
    (constantI S0 1 1#1) red_C_E pos0

/-- The rows of the node table `h` at a column of start indices. -/
def rowsAt (h : FVec F SN .f32) (w : IVec SC 32) : FVec F SM .f32 := Host.gather gatherRows h w

/-- The rows of `h` at the ids `i`, a row whose wrapped id is outside the table replaced by a fixed fill row. -/
def takeFill (h : FVec F SN .f32) (i : IVec SE 32) : FVec F SM .f32 :=
  select (broadcastInDim SM ![0] bc_E_M (inb (col (wrap i)))) (rowsAt h (col (wrap i)))
    (broadcastInDim SM ![] bc_0_M (constant S0 .f32 0x7FC00000#32))

/-- The messages added up per target node, from a zero table. -/
def segSum (dst : IVec SE 32) (msg : FVec F SM .f32) : FVec F SN .f32 :=
  Host.scatterAdd scatterRows (broadcastInDim SN ![] bc_0_N (constant S0 .f32 0x00000000#32)) (col dst) msg

/-- The matrix as the product takes it: transposed, then in the narrower float format. -/
def wT (W : FVec F SW .f32) : FVec F SW .bf16 := truncf .bf16 (transpose SW [1, 0] W transW) (by decide)
/-- The bias as a one-row matrix. -/
def bRow (b : FVec F SB .f32) : FVec F SR .f32 := shapeCast SR b castsB

/-- One message entry: `∑ k, (hs (e, k) - hd (e, k)) · wt (k, c)`, plus the bias at `c`. -/
def msgAt (hs hd : SM.Idx → EReal) (wt : SW.Idx → EReal) (br : SR.Idx → EReal) (e : Fin 800000) (c : Fin 128) : EReal :=
  (∑ k : Fin 128, (hs (ix2 e k) - hd (ix2 e k)) * wt (ix2 k c)) + br (ix2 0 c)

/-- The message array, index by index. -/
def msgArr (hs hd : SM.Idx → EReal) (wt : SW.Idx → EReal) (br : SR.Idx → EReal) : SM.Idx → EReal :=
  fun i => msgAt hs hd wt br (i 0) (i 1)

/-- The layer that fills out-of-table rows and forms its messages by the sum `msgArr`. -/
def layerFill (h : FVec Ideal SN .f32) (W : FVec Ideal SW .f32) (b : FVec Ideal SB .f32) (src dst : IVec SE 32) : FVec Ideal SN .f32 :=
  segSum dst (msgArr (takeFill h src) (takeFill h dst) (wT W) (bRow b))

/-- The layer that reads the rows as gathered and forms its messages by one whole product. -/
def layerPlain (h : FVec Ideal SN .f32) (W : FVec Ideal SW .f32) (b : FVec Ideal SB .f32) (src dst : IVec SE 32) : FVec Ideal SN .f32 :=
  segSum dst (addf (Host.dotGeneral dotPlain none (subf (rowsAt h (col (wrap src))) (rowsAt h (col (wrap dst)))) (transpose SW [1, 0] W transW))
    (broadcastInDim SM ![0, 1] bc_R_M (broadcastInDim SR ![1] bc_B_R b)))

end Cert.Spec

end
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.Stages.lean ====
/-
  What each stretch of host operations between the launches computes.

  @main is four stretches of host operations around three launches. From whatever the buffers hold when a stretch
  starts (`X`), the buffers the next launch reads are pure functions of it: the first stretch cuts the edge list into
  its source and target ids and gathers the node rows of the input table at each, filling rows whose wrapped id is outside
  the table (`takeFill`), transposes and narrows the weights and lays the bias as a row; the second and third first sum the
  previous launch's messages per target node (`segSum`) and then do the same with that table; the last only sums.
  Typed references move contents along an equation of types that holds by computation: reading or writing a literal
  buffer at its own type moves nothing.
-/
import proofs.«430844_j22960895165048_1_alg».proof.Proof.Gen.KernelIdeal.Launch
import proofs.«430844_j22960895165048_1_alg».proof.Proof.Spec
import proofs.«430844_j22960895165048_1_alg».proof.Proof.LibTRef

set_option maxRecDepth 16384

noncomputable section

namespace Cert.KernelIdeal.Stages

open Cert.KernelIdeal Cert.KernelIdeal.Gen Cert.Spec
open Idealize.ShloMosaic Idealize.ShloMosaic.TcCoe Idealize.ShloMosaic.StableHlo Idealize.SL.Sem

/-- Reading a literal buffer at its own type moves nothing. -/
theorem ofBuf_lit {T : BufTy} (r : Ref sig .tc) (h1 : r.ty = T) (h2 : r.space ≠ .host) (h3 : r.isScoped = false)
    (u : r.ty.Contents (Elt Ideal)) (w : T.Contents (Elt Ideal)) (h : HEq u w) : (TRef.of r h1 h2 h3).ofBuf u = w :=
  eq_of_heq ((cast_heq _ u).trans h)
/-- Writing a literal buffer at its own type moves nothing. -/
theorem toBuf_lit {T : BufTy} (r : Ref sig .tc) (h1 : r.ty = T) (h2 : r.space ≠ .host) (h3 : r.isScoped = false)
    (v : T.Contents (Elt Ideal)) (w : r.ty.Contents (Elt Ideal)) (h : HEq v w) : (TRef.of r h1 h2 h3).toBuf v = w :=
  eq_of_heq ((cast_heq _ v).trans h)

theorem rd_v1 (h1 h2 h3) (u : main_v1.ty.Contents (Elt Ideal)) :
    (TRef.of main_v1 h1 h2 h3 : TRef sig ⟨S800000, .i32⟩).ofBuf u = (u : (⟨S800000, .i32⟩ : BufTy).Contents (Elt Ideal)) := ofBuf_lit _ _ _ _ _ _ HEq.rfl
theorem rd_v3 (h1 h2 h3) (u : main_v3.ty.Contents (Elt Ideal)) :
    (TRef.of main_v3 h1 h2 h3 : TRef sig ⟨S800000, .i32⟩).ofBuf u = (u : (⟨S800000, .i32⟩ : BufTy).Contents (Elt Ideal)) := ofBuf_lit _ _ _ _ _ _ HEq.rfl
theorem rd_arg0 (h1 h2 h3) (u : main_arg0.ty.Contents (Elt Ideal)) :
    (TRef.of main_arg0 h1 h2 h3 : TRef sig ⟨S50000x128, .f32⟩).ofBuf u = (u : (⟨S50000x128, .f32⟩ : BufTy).Contents (Elt Ideal)) := ofBuf_lit _ _ _ _ _ _ HEq.rfl
theorem rd_v12 (h1 h2 h3) (u : main_v12.ty.Contents (Elt Ideal)) :
    (TRef.of main_v12 h1 h2 h3 : TRef sig ⟨S50000x128, .f32⟩).ofBuf u = (u : (⟨S50000x128, .f32⟩ : BufTy).Contents (Elt Ideal)) := ofBuf_lit _ _ _ _ _ _ HEq.rfl
theorem rd_v21 (h1 h2 h3) (u : main_v21.ty.Contents (Elt Ideal)) :
    (TRef.of main_v21 h1 h2 h3 : TRef sig ⟨S50000x128, .f32⟩).ofBuf u = (u : (⟨S50000x128, .f32⟩ : BufTy).Contents (Elt Ideal)) := ofBuf_lit _ _ _ _ _ _ HEq.rfl
theorem wr_v4 (h1 h2 h3) (v : (⟨S800000x128, .f32⟩ : BufTy).Contents (Elt Ideal)) :
    TRef.toBuf (Val := Elt Ideal) (TRef.of main_v4 h1 h2 h3 : TRef sig ⟨S800000x128, .f32⟩) v = v := toBuf_lit _ _ _ _ _ _ HEq.rfl
theorem wr_v5 (h1 h2 h3) (v : (⟨S800000x128, .f32⟩ : BufTy).Contents (Elt Ideal)) :
    TRef.toBuf (Val := Elt Ideal) (TRef.of main_v5 h1 h2 h3 : TRef sig ⟨S800000x128, .f32⟩) v = v := toBuf_lit _ _ _ _ _ _ HEq.rfl
theorem wr_v13 (h1 h2 h3) (v : (⟨S800000x128, .f32⟩ : BufTy).Contents (Elt Ideal)) :
    TRef.toBuf (Val := Elt Ideal) (TRef.of main_v13 h1 h2 h3 : TRef sig ⟨S800000x128, .f32⟩) v = v := toBuf_lit _ _ _ _ _ _ HEq.rfl
theorem wr_v14 (h1 h2 h3) (v : (⟨S800000x128, .f32⟩ : BufTy).Contents (Elt Ideal)) :
    TRef.toBuf (Val := Elt Ideal) (TRef.of main_v14 h1 h2 h3 : TRef sig ⟨S800000x128, .f32⟩) v = v := toBuf_lit _ _ _ _ _ _ HEq.rfl
theorem wr_v22 (h1 h2 h3) (v : (⟨S800000x128, .f32⟩ : BufTy).Contents (Elt Ideal)) :
    TRef.toBuf (Val := Elt Ideal) (TRef.of main_v22 h1 h2 h3 : TRef sig ⟨S800000x128, .f32⟩) v = v := toBuf_lit _ _ _ _ _ _ HEq.rfl
theorem wr_v23 (h1 h2 h3) (v : (⟨S800000x128, .f32⟩ : BufTy).Contents (Elt Ideal)) :
    TRef.toBuf (Val := Elt Ideal) (TRef.of main_v23 h1 h2 h3 : TRef sig ⟨S800000x128, .f32⟩) v = v := toBuf_lit _ _ _ _ _ _ HEq.rfl

variable (X : Valuation τ sig (Elt Ideal))

/-! ## Before launch 0 -/

/-- The contents when launch 0 is entered. -/
abbrev entry0 : Valuation τ sig (Elt Ideal) := after hostOps0_3 (after hostOps0_2 (after hostOps0_1 (after hostOps0 X)))

theorem entry0_srcRows : entry0 X (Proc.devRef .tc main_v4)
    = takeFill (F := Ideal) (X (Proc.devRef .tc main_arg0)) (srcOf (X (Proc.devRef .tc main_arg7))) := by
  dsimp only [entry0, hostOps0, hostOps0_1, hostOps0_2, hostOps0_3]
  after_results_simp
  simp only [Cert.LibTRef.ofBuf_toBuf, rd_v1, rd_v3, rd_arg0, rd_v12, rd_v21, wr_v4, wr_v5, wr_v13, wr_v14, wr_v22, wr_v23]
  rfl
theorem entry0_dstRows : entry0 X (Proc.devRef .tc main_v5)
    = takeFill (F := Ideal) (X (Proc.devRef .tc main_arg0)) (dstOf (X (Proc.devRef .tc main_arg7))) := by
  dsimp only [entry0, hostOps0, hostOps0_1, hostOps0_2, hostOps0_3]
  after_results_simp
  simp only [Cert.LibTRef.ofBuf_toBuf, rd_v1, rd_v3, rd_arg0, rd_v12, rd_v21, wr_v4, wr_v5, wr_v13, wr_v14, wr_v22, wr_v23]
  rfl
theorem entry0_weights : entry0 X (Proc.devRef .tc main_v7)
    = wT (F := Ideal) (X (Proc.devRef .tc main_arg1)) := by
  dsimp only [entry0, hostOps0, hostOps0_1, hostOps0_2, hostOps0_3]
  after_results_simp
  rfl
theorem entry0_bias : entry0 X (Proc.devRef .tc main_v8)
    = bRow (F := Ideal) (X (Proc.devRef .tc main_arg2)) := by
  dsimp only [entry0, hostOps0, hostOps0_1, hostOps0_2, hostOps0_3]
  after_results_simp
  rfl
theorem entry0_src : entry0 X (Proc.devRef .tc main_v1)
    = srcOf (X (Proc.devRef .tc main_arg7)) := by
  dsimp only [entry0, hostOps0, hostOps0_1, hostOps0_2, hostOps0_3]
  after_results_simp
  rfl
theorem entry0_dst : entry0 X (Proc.devRef .tc main_v3)
    = dstOf (X (Proc.devRef .tc main_arg7)) := by
  dsimp only [entry0, hostOps0, hostOps0_1, hostOps0_2, hostOps0_3]
  after_results_simp
  rfl
theorem entry0_arg3 : entry0 X (Proc.devRef .tc main_arg3) = X (Proc.devRef .tc main_arg3) := by
  dsimp only [entry0, hostOps0, hostOps0_1, hostOps0_2, hostOps0_3]
  after_results_simp
theorem entry0_arg4 : entry0 X (Proc.devRef .tc main_arg4) = X (Proc.devRef .tc main_arg4) := by
  dsimp only [entry0, hostOps0, hostOps0_1, hostOps0_2, hostOps0_3]
  after_results_simp
theorem entry0_arg5 : entry0 X (Proc.devRef .tc main_arg5) = X (Proc.devRef .tc main_arg5) := by
  dsimp only [entry0, hostOps0, hostOps0_1, hostOps0_2, hostOps0_3]
  after_results_simp
theorem entry0_arg6 : entry0 X (Proc.devRef .tc main_arg6) = X (Proc.devRef .tc main_arg6) := by
  dsimp only [entry0, hostOps0, hostOps0_1, hostOps0_2, hostOps0_3]
  after_results_simp

/-! ## Between launch 0 and launch 1 -/

/-- The contents when launch 1 is entered, from the contents `X` launch 0 leaves. -/
abbrev entry1 : Valuation τ sig (Elt Ideal) := after hostOps1_3 (after hostOps1_2 (after hostOps1_1 (after hostOps1 X)))

theorem entry1_srcRows : entry1 X (Proc.devRef .tc main_v13)
    = takeFill (F := Ideal) (segSum (F := Ideal) (X (Proc.devRef .tc main_v3)) (X (Proc.devRef .tc main_v9))) (X (Proc.devRef .tc main_v1)) := by
  dsimp only [entry1, hostOps1, hostOps1_1, hostOps1_2, hostOps1_3]
  after_results_simp
  simp only [Cert.LibTRef.ofBuf_toBuf, rd_v1, rd_v3, rd_arg0, rd_v12, rd_v21, wr_v4, wr_v5, wr_v13, wr_v14, wr_v22, wr_v23]
  rfl
theorem entry1_dstRows : entry1 X (Proc.devRef .tc main_v14)
    = takeFill (F := Ideal) (segSum (F := Ideal) (X (Proc.devRef .tc main_v3)) (X (Proc.devRef .tc main_v9))) (X (Proc.devRef .tc main_v3)) := by
  dsimp only [entry1, hostOps1, hostOps1_1, hostOps1_2, hostOps1_3]
  after_results_simp
  simp only [Cert.LibTRef.ofBuf_toBuf, rd_v1, rd_v3, rd_arg0, rd_v12, rd_v21, wr_v4, wr_v5, wr_v13, wr_v14, wr_v22, wr_v23]
  rfl
theorem entry1_weights : entry1 X (Proc.devRef .tc main_v16)
    = wT (F := Ideal) (X (Proc.devRef .tc main_arg3)) := by
  dsimp only [entry1, hostOps1, hostOps1_1, hostOps1_2, hostOps1_3]
  after_results_simp
  rfl
theorem entry1_bias : entry1 X (Proc.devRef .tc main_v17)
    = bRow (F := Ideal) (X (Proc.devRef .tc main_arg4)) := by
  dsimp only [entry1, hostOps1, hostOps1_1, hostOps1_2, hostOps1_3]
  after_results_simp
  rfl
theorem entry1_src : entry1 X (Proc.devRef .tc main_v1) = X (Proc.devRef .tc main_v1) := by
  dsimp only [entry1, hostOps1, hostOps1_1, hostOps1_2, hostOps1_3]
  after_results_simp
theorem entry1_dst : entry1 X (Proc.devRef .tc main_v3) = X (Proc.devRef .tc main_v3) := by
  dsimp only [entry1, hostOps1, hostOps1_1, hostOps1_2, hostOps1_3]
  after_results_simp
theorem entry1_arg5 : entry1 X (Proc.devRef .tc main_arg5) = X (Proc.devRef .tc main_arg5) := by
  dsimp only [entry1, hostOps1, hostOps1_1, hostOps1_2, hostOps1_3]
  after_results_simp
theorem entry1_arg6 : entry1 X (Proc.devRef .tc main_arg6) = X (Proc.devRef .tc main_arg6) := by
  dsimp only [entry1, hostOps1, hostOps1_1, hostOps1_2, hostOps1_3]
  after_results_simp

/-! ## Between launch 1 and launch 2 -/

/-- The contents when launch 2 is entered, from the contents `X` launch 1 leaves. -/
abbrev entry2 : Valuation τ sig (Elt Ideal) := after hostOps2_3 (after hostOps2_2 (after hostOps2_1 (after hostOps2 X)))

theorem entry2_srcRows : entry2 X (Proc.devRef .tc main_v22)
    = takeFill (F := Ideal) (segSum (F := Ideal) (X (Proc.devRef .tc main_v3)) (X (Proc.devRef .tc main_v18))) (X (Proc.devRef .tc main_v1)) := by
  dsimp only [entry2, hostOps2, hostOps2_1, hostOps2_2, hostOps2_3]
  after_results_simp
  simp only [Cert.LibTRef.ofBuf_toBuf, rd_v1, rd_v3, rd_arg0, rd_v12, rd_v21, wr_v4, wr_v5, wr_v13, wr_v14, wr_v22, wr_v23]
  rfl
theorem entry2_dstRows : entry2 X (Proc.devRef .tc main_v23)
    = takeFill (F := Ideal) (segSum (F := Ideal) (X (Proc.devRef .tc main_v3)) (X (Proc.devRef .tc main_v18))) (X (Proc.devRef .tc main_v3)) := by
  dsimp only [entry2, hostOps2, hostOps2_1, hostOps2_2, hostOps2_3]
  after_results_simp
  simp only [Cert.LibTRef.ofBuf_toBuf, rd_v1, rd_v3, rd_arg0, rd_v12, rd_v21, wr_v4, wr_v5, wr_v13, wr_v14, wr_v22, wr_v23]
  rfl
theorem entry2_weights : entry2 X (Proc.devRef .tc main_v25)
    = wT (F := Ideal) (X (Proc.devRef .tc main_arg5)) := by
  dsimp only [entry2, hostOps2, hostOps2_1, hostOps2_2, hostOps2_3]
  after_results_simp
  rfl
theorem entry2_bias : entry2 X (Proc.devRef .tc main_v26)
    = bRow (F := Ideal) (X (Proc.devRef .tc main_arg6)) := by
  dsimp only [entry2, hostOps2, hostOps2_1, hostOps2_2, hostOps2_3]
  after_results_simp
  rfl
theorem entry2_dst : entry2 X (Proc.devRef .tc main_v3) = X (Proc.devRef .tc main_v3) := by
  dsimp only [entry2, hostOps2, hostOps2_1, hostOps2_2, hostOps2_3]
  after_results_simp

/-! ## After launch 2 -/

/-- The contents @main ends with, from the contents `X` launch 2 leaves. -/
abbrev exit3 : Valuation τ sig (Elt Ideal) := after hostOps3 X

theorem exit3_result : exit3 X (Proc.devRef .tc main_v30)
    = (segSum (F := Ideal) (X (Proc.devRef .tc main_v3)) (X (Proc.devRef .tc main_v27))) := by
  dsimp only [exit3, hostOps3]
  after_results_simp
  rfl

end Cert.KernelIdeal.Stages

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.Payload.lean ====
/-
  The body's arithmetic at an index, at the ideal values.

  One grid point loads a block of 8000 source rows, the same block of target rows, the whole 128 × 128 weight
  matrix and the one-row bias, and stores `(xs - xd) · wt + b`: the difference row by row, a change of float format
  (the identity on extended reals), a product into a zero accumulator and the bias row added to every row. At entry
  `(p, q)` of the block that is `∑ k, (xs (p, k) - xd (p, k)) · wt (k, q) + b (0, q)`. The three launches of the
  program have the same body.
-/
import proofs.«430844_j22960895165048_1_alg».proof.Proof.Gen.KernelIdeal.Skeleton
import proofs.«430844_j22960895165048_1_alg».proof.Proof.LibDot
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.Pipeline

/-- The stored block at `(p, q)`. -/
theorem pay_apply0 (x0 x1 : FVec Ideal S8000x128 .f32) (x2 : FVec Ideal S128x128 .bf16) (x3 : FVec Ideal S1x128 .f32)
    (p : Fin 8000) (q : Fin 128) :
    k0_pay1 (F := Ideal) x0 x1 x2 x3 (ix2 p q)
      = (∑ k : Fin 128, (x0 (ix2 p k) - x1 (ix2 p k)) * x2 (ix2 k q)) + x3 (ix2 (0 : Fin 1) q) := by
  unfold k0_pay1
  simp only [shapeCast_self]
  show FloatOps.addf
      (matmul dot_S8000x128_S128x128_S8000x128_1_0_0_1_n_n none (truncf .bf16 (subf x0 x1) bitsLt_bf16_f32) x2
        (constant S8000x128 .f32 0x00000000#32) (ix2 p q))
      (broadcastTo S8000x128 x3 broadcasts_S1x128_S8000x128 (ix2 p q)) = _
  rw [Ideal.addf_def, Cert.LibDot.matmul_plain_apply _ rfl rfl rfl rfl rfl rfl, broadcastTo_1b_ab_apply]
  rfl

/-- The second and third launch store the same function of their blocks. -/
theorem pay1_eq : k1_pay1 (F := Ideal) = k0_pay1 (F := Ideal) := rfl
theorem pay2_eq : k2_pay1 (F := Ideal) = k0_pay1 (F := Ideal) := rfl

theorem pay_apply1 (x0 x1 : FVec Ideal S8000x128 .f32) (x2 : FVec Ideal S128x128 .bf16) (x3 : FVec Ideal S1x128 .f32)
    (p : Fin 8000) (q : Fin 128) :
    k1_pay1 (F := Ideal) x0 x1 x2 x3 (ix2 p q)
      = (∑ k : Fin 128, (x0 (ix2 p k) - x1 (ix2 p k)) * x2 (ix2 k q)) + x3 (ix2 (0 : Fin 1) q) := by
  rw [pay1_eq]; exact pay_apply0 x0 x1 x2 x3 p q

theorem pay_apply2 (x0 x1 : FVec Ideal S8000x128 .f32) (x2 : FVec Ideal S128x128 .bf16) (x3 : FVec Ideal S1x128 .f32)
    (p : Fin 8000) (q : Fin 128) :
    k2_pay1 (F := Ideal) x0 x1 x2 x3 (ix2 p q)
      = (∑ k : Fin 128, (x0 (ix2 p k) - x1 (ix2 p k)) * x2 (ix2 k q)) + x3 (ix2 (0 : Fin 1) q) := by
  rw [pay2_eq]; exact pay_apply0 x0 x1 x2 x3 p q

end Cert.KernelIdeal.Payload

end
-- ==== Proof.Region0.lean ====
/-
  The message array launch 0 leaves, as one function of the arrays it finds.

  The launch walks 100 grid points. Point `t` reads rows `8000·t … 8000·t + 7999` of the two gathered-row arrays, the
  whole weight matrix and the one-row bias, and writes back the same rows of the result: entry `(p, q)` of its block
  is `∑ k, (xs (p, k) - xd (p, k)) · wt (k, q) + b (0, q)` of the loaded blocks, which is entry
  `(8000·t + p, q)` of `Cert.Spec.msgArr` of the whole arrays. The 100 blocks tile the 800000 rows (row `r` is in
  block `r / 8000`), so after the launch the result array is `msgArr` of the arrays the launch found.
-/
import proofs.«430844_j22960895165048_1_alg».proof.Proof.Gen.KernelIdeal.Frame
import proofs.«430844_j22960895165048_1_alg».proof.Proof.Payload
import proofs.«430844_j22960895165048_1_alg».proof.Proof.Spec
import Idealize.ShloMosaic.Lib.Pipeline.Value

set_option maxRecDepth 16384

noncomputable section

namespace Cert.KernelIdeal.Region0

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)
open Cert.Spec (msgArr msgAt)

variable (V : (c : Dev nD) → (b : Ref sig .tc) → Buf (Elt Ideal) ((c : Thread nD τ).loc b))

/-- The four arrays the launch reads, at their literal types. -/
abbrev srcRows (c : Dev nD) : FVec Ideal S800000x128 .f32 := V c main_v4
abbrev dstRows (c : Dev nD) : FVec Ideal S800000x128 .f32 := V c main_v5
abbrev weights (c : Dev nD) : FVec Ideal S128x128 .bf16 := V c main_v7
abbrev biasRow (c : Dev nD) : FVec Ideal S1x128 .f32 := V c main_v8

theorem hz : (![0, 0] : Fin 2 → Nat) = fun _ => 0 := funext fun a => by fin_cases a <;> rfl

/-- The printed index maps, decided over the grid: the row windows are at block `t`, the matrix and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored block at `(p, q)`, when its loaded blocks are rows `8000·t + p` of two arrays, a whole matrix and a
    whole one-row bias: the message entry `(8000·t + p, q)`. -/
theorem block_entry (x0 x1 : FVec Ideal S8000x128 .f32) (x2 : FVec Ideal S128x128 .bf16) (x3 : FVec Ideal S1x128 .f32)
    (hs hd : S800000x128.Idx → EReal) (wt : S128x128.Idx → EReal) (br : S1x128.Idx → EReal)
    (p : Fin 8000) (q : Fin 128) (e : Fin 800000)
    (h0 : ∀ k : Fin 128, x0 (ix2 p k) = hs (ix2 e k)) (h1 : ∀ k : Fin 128, x1 (ix2 p k) = hd (ix2 e k))
    (h2 : ∀ k : Fin 128, x2 (ix2 k q) = wt (ix2 k q)) (h3 : x3 (ix2 (0 : Fin 1) q) = br (ix2 (0 : Fin 1) q)) :
    k0_pay1 (F := Ideal) x0 x1 x2 x3 (ix2 p q) = msgAt hs hd wt br e q := by
  rw [pay_apply0, h3]
  unfold msgAt
  congr 1
  exact Finset.sum_congr rfl fun k _ => by rw [h0 k, h1 k, h2 k]

/-- Rows `8000·t + p` of a row window's array are row `p` of its block at point `t`. -/
theorem read_rows0 (c : Dev nD) (t : Fin cfg0.N) (p : Fin 8000) (k : Fin 128) (e : Fin 800000) (he : e.val = t.val * 8000 + p.val) :
    iblk0 V c 0 t (ix2 p k) = srcRows V c (ix2 e k) := by
  obtain ⟨e0, e1, -⟩ := idx_facts t
  show V c (Pipeline.arrRef spec0 0) (((cfg0.win 0).blk t).view.emb (ix2 p k)) = V c main_v4 (ix2 e k)
  refine congrArg (V c main_v4) ?_
  funext a; apply Fin.ext
  match a with
  | ⟨0, _⟩ => show win0_0.index t (0 : Fin 2) * 8000 + 1 * p.val = e.val; omega
  | ⟨1, _⟩ => show win0_0.index t (1 : Fin 2) * 128 + 1 * k.val = k.val; omega

theorem read_rows1 (c : Dev nD) (t : Fin cfg0.N) (p : Fin 8000) (k : Fin 128) (e : Fin 800000) (he : e.val = t.val * 8000 + p.val) :
    iblk0 V c 1 t (ix2 p k) = dstRows V c (ix2 e k) := by
  obtain ⟨-, -, e0, e1, -⟩ := idx_facts t
  show V c (Pipeline.arrRef spec0 1) (((cfg0.win 1).blk t).view.emb (ix2 p k)) = V c main_v5 (ix2 e k)
  refine congrArg (V c main_v5) ?_
  funext a; apply Fin.ext
  match a with
  | ⟨0, _⟩ => show win0_1.index t (0 : Fin 2) * 8000 + 1 * p.val = e.val; omega
  | ⟨1, _⟩ => show win0_1.index t (1 : Fin 2) * 128 + 1 * k.val = k.val; omega

/-- The matrix window's one block is the whole matrix. -/
theorem read_weights (c : Dev nD) (t : Fin cfg0.N) (k q : Fin 128) :
    iblk0 V c 2 t (ix2 k q) = weights V c (ix2 k q) := by
  obtain ⟨-, -, -, -, e0, e1, -⟩ := idx_facts t
  show V c (Pipeline.arrRef spec0 2) (((cfg0.win 2).blk t).view.emb (ix2 k q)) = V c main_v7 (ix2 k q)
  refine congrArg (V c main_v7) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias window's one block is the whole one-row bias. -/
theorem read_bias (c : Dev nD) (t : Fin cfg0.N) (q : Fin 128) :
    iblk0 V c 3 t (ix2 (0 : Fin 1) q) = biasRow V c (ix2 (0 : Fin 1) q) := by
  obtain ⟨-, -, -, -, -, -, e0, e1, -⟩ := idx_facts t
  show V c (Pipeline.arrRef spec0 3) (((cfg0.win 3).blk t).view.emb (ix2 (0 : Fin 1) q)) = V c main_v8 (ix2 (0 : Fin 1) q)
  refine congrArg (V c main_v8) ?_
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- WHAT POINT `t` WRITES BACK is block `t` of the message array of the arrays the launch found. -/
theorem flushed_eq (c : Dev nD) (t : Fin cfg0.N) :
    (dat0 V c).flushed 4 t
      = ((cfg0.win 4).blk t).view.read (Elt Ideal) (msgArr (srcRows V c) (dstRows V c) (weights V c) (biasRow V c)) := by
  show (cfg0.win 4).cut (grid0.coords t) ((dat0 V c).after 4 t) = _
  rw [after0_4]
  unfold out0_4
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  obtain ⟨-, -, -, -, -, -, -, -, e0, e1⟩ := idx_facts t
  have hp : p.val < 8000 := p.isLt
  have ht : t.val < 100 := lt_of_lt_of_eq t.isLt N_0
  have hrow : ((cfg0.win 4).blk t).view.emb (ix2 p q) = ix2 (⟨t.val * 8000 + p.val, by omega⟩ : Fin 800000) q := by
    funext a; apply Fin.ext
    match a with
    | ⟨0, _⟩ => show win0_4.index t (0 : Fin 2) * 8000 + 1 * p.val = t.val * 8000 + p.val; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (ix2 p q)
      = msgArr (srcRows V c) (dstRows V c) (weights V c) (biasRow V c) (((cfg0.win 4).blk t).view.emb (ix2 p q))
  rw [hrow]
  exact block_entry (iblk0 V c 0 t) (iblk0 V c 1 t) (iblk0 V c 2 t) (iblk0 V c 3 t)
    (srcRows V c) (dstRows V c) (weights V c) (biasRow V c) p q ⟨t.val * 8000 + p.val, by omega⟩
    (fun k => read_rows0 V c t p k _ rfl) (fun k => read_rows1 V c t p k _ rfl) (fun k => read_weights V c t k q) (read_bias V c t q)

/-- An index of the result array is in point `t`'s block iff each coordinate is in the block's range on its axis. -/
theorem mem_blk (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v9).slice (win0_4.rect t)).set ↔ _
  rw [View.set_slice_whole, Rect.mem_set_unit]
  exact Iff.rfl

/-- The blocks tile the array: row `r` is in block `r / 8000`. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  let t : Fin cfg0.N := ⟨(i 0).val / 8000, lt_of_lt_of_eq (by omega : (i 0).val / 8000 < 100) N_0.symm⟩
  obtain ⟨-, -, -, -, -, -, -, -, e0, e1⟩ := idx_facts t
  have e0' : win0_4.index t (0 : Fin 2) = (i 0).val / 8000 := e0
  refine ⟨t, flush0_4 t, ?_⟩
  rw [mem_blk]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

/-- THE RESULT ARRAY after the launch: the message array of the arrays the launch found. -/
theorem arr_eq (c : Dev nD) :
    (dat0 V c).arrAt 4 cfg0.N = msgArr (srcRows V c) (dstRows V c) (weights V c) (biasRow V c) :=
  (dat0 V c).arrAt_eq_of_cover 4 _ (fun t _ => flushed_eq V c t) cover

end Cert.KernelIdeal.Region0

end
-- ==== Proof.Region1.lean ====
/-
  The message array launch 1 leaves, as one function of the arrays it finds.

  The launch walks 100 grid points. Point `t` reads rows `8000·t … 8000·t + 7999` of the two gathered-row arrays, the
  whole weight matrix and the one-row bias, and writes back the same rows of the result: entry `(p, q)` of its block
  is `∑ k, (xs (p, k) - xd (p, k)) · wt (k, q) + b (0, q)` of the loaded blocks, which is entry
  `(8000·t + p, q)` of `Cert.Spec.msgArr` of the whole arrays. The 100 blocks tile the 800000 rows (row `r` is in
  block `r / 8000`), so after the launch the result array is `msgArr` of the arrays the launch found.
-/
import proofs.«430844_j22960895165048_1_alg».proof.Proof.Gen.KernelIdeal.Frame
import proofs.«430844_j22960895165048_1_alg».proof.Proof.Payload
import proofs.«430844_j22960895165048_1_alg».proof.Proof.Spec
import Idealize.ShloMosaic.Lib.Pipeline.Value

set_option maxRecDepth 16384

noncomputable section

namespace Cert.KernelIdeal.Region1

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)
open Cert.Spec (msgArr msgAt)

variable (V : (c : Dev nD) → (b : Ref sig .tc) → Buf (Elt Ideal) ((c : Thread nD τ).loc b))

/-- The four arrays the launch reads, at their literal types. -/
abbrev srcRows (c : Dev nD) : FVec Ideal S800000x128 .f32 := V c main_v13
abbrev dstRows (c : Dev nD) : FVec Ideal S800000x128 .f32 := V c main_v14
abbrev weights (c : Dev nD) : FVec Ideal S128x128 .bf16 := V c main_v16
abbrev biasRow (c : Dev nD) : FVec Ideal S1x128 .f32 := V c main_v17

theorem hz : (![0, 0] : Fin 2 → Nat) = fun _ => 0 := funext fun a => by fin_cases a <;> rfl

/-- The printed index maps, decided over the grid: the row windows are at block `t`, the matrix and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored block at `(p, q)`, when its loaded blocks are rows `8000·t + p` of two arrays, a whole matrix and a
    whole one-row bias: the message entry `(8000·t + p, q)`. -/
theorem block_entry (x0 x1 : FVec Ideal S8000x128 .f32) (x2 : FVec Ideal S128x128 .bf16) (x3 : FVec Ideal S1x128 .f32)
    (hs hd : S800000x128.Idx → EReal) (wt : S128x128.Idx → EReal) (br : S1x128.Idx → EReal)
    (p : Fin 8000) (q : Fin 128) (e : Fin 800000)
    (h0 : ∀ k : Fin 128, x0 (ix2 p k) = hs (ix2 e k)) (h1 : ∀ k : Fin 128, x1 (ix2 p k) = hd (ix2 e k))
    (h2 : ∀ k : Fin 128, x2 (ix2 k q) = wt (ix2 k q)) (h3 : x3 (ix2 (0 : Fin 1) q) = br (ix2 (0 : Fin 1) q)) :
    k1_pay1 (F := Ideal) x0 x1 x2 x3 (ix2 p q) = msgAt hs hd wt br e q := by
  rw [pay_apply1, h3]
  unfold msgAt
  congr 1
  exact Finset.sum_congr rfl fun k _ => by rw [h0 k, h1 k, h2 k]

/-- Rows `8000·t + p` of a row window's array are row `p` of its block at point `t`. -/
theorem read_rows0 (c : Dev nD) (t : Fin cfg1.N) (p : Fin 8000) (k : Fin 128) (e : Fin 800000) (he : e.val = t.val * 8000 + p.val) :
    iblk1 V c 0 t (ix2 p k) = srcRows V c (ix2 e k) := by
  obtain ⟨e0, e1, -⟩ := idx_facts t
  show V c (Pipeline.arrRef spec1 0) (((cfg1.win 0).blk t).view.emb (ix2 p k)) = V c main_v13 (ix2 e k)
  refine congrArg (V c main_v13) ?_
  funext a; apply Fin.ext
  match a with
  | ⟨0, _⟩ => show win1_0.index t (0 : Fin 2) * 8000 + 1 * p.val = e.val; omega
  | ⟨1, _⟩ => show win1_0.index t (1 : Fin 2) * 128 + 1 * k.val = k.val; omega

theorem read_rows1 (c : Dev nD) (t : Fin cfg1.N) (p : Fin 8000) (k : Fin 128) (e : Fin 800000) (he : e.val = t.val * 8000 + p.val) :
    iblk1 V c 1 t (ix2 p k) = dstRows V c (ix2 e k) := by
  obtain ⟨-, -, e0, e1, -⟩ := idx_facts t
  show V c (Pipeline.arrRef spec1 1) (((cfg1.win 1).blk t).view.emb (ix2 p k)) = V c main_v14 (ix2 e k)
  refine congrArg (V c main_v14) ?_
  funext a; apply Fin.ext
  match a with
  | ⟨0, _⟩ => show win1_1.index t (0 : Fin 2) * 8000 + 1 * p.val = e.val; omega
  | ⟨1, _⟩ => show win1_1.index t (1 : Fin 2) * 128 + 1 * k.val = k.val; omega

/-- The matrix window's one block is the whole matrix. -/
theorem read_weights (c : Dev nD) (t : Fin cfg1.N) (k q : Fin 128) :
    iblk1 V c 2 t (ix2 k q) = weights V c (ix2 k q) := by
  obtain ⟨-, -, -, -, e0, e1, -⟩ := idx_facts t
  show V c (Pipeline.arrRef spec1 2) (((cfg1.win 2).blk t).view.emb (ix2 k q)) = V c main_v16 (ix2 k q)
  refine congrArg (V c main_v16) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The bias window's one block is the whole one-row bias. -/
theorem read_bias (c : Dev nD) (t : Fin cfg1.N) (q : Fin 128) :
    iblk1 V c 3 t (ix2 (0 : Fin 1) q) = biasRow V c (ix2 (0 : Fin 1) q) := by
  obtain ⟨-, -, -, -, -, -, e0, e1, -⟩ := idx_facts t
  show V c (Pipeline.arrRef spec1 3) (((cfg1.win 3).blk t).view.emb (ix2 (0 : Fin 1) q)) = V c main_v17 (ix2 (0 : Fin 1) q)
  refine congrArg (V c main_v17) ?_
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- WHAT POINT `t` WRITES BACK is block `t` of the message array of the arrays the launch found. -/
theorem flushed_eq (c : Dev nD) (t : Fin cfg1.N) :
    (dat1 V c).flushed 4 t
      = ((cfg1.win 4).blk t).view.read (Elt Ideal) (msgArr (srcRows V c) (dstRows V c) (weights V c) (biasRow V c)) := by
  show (cfg1.win 4).cut (grid1.coords t) ((dat1 V c).after 4 t) = _
  rw [after1_4]
  unfold out1_4
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  obtain ⟨-, -, -, -, -, -, -, -, e0, e1⟩ := idx_facts t
  have hp : p.val < 8000 := p.isLt
  have ht : t.val < 100 := lt_of_lt_of_eq t.isLt N_1
  have hrow : ((cfg1.win 4).blk t).view.emb (ix2 p q) = ix2 (⟨t.val * 8000 + p.val, by omega⟩ : Fin 800000) q := by
    funext a; apply Fin.ext
    match a with
    | ⟨0, _⟩ => show win1_4.index t (0 : Fin 2) * 8000 + 1 * p.val = t.val * 8000 + p.val; omega
    | ⟨1, _⟩ => show win1_4.index t (1 : Fin 2) * 128 + 1 * q.val = q.val; omega
  show k1_pay1 (F := Ideal) (iblk1 V c 0 t) (iblk1 V c 1 t) (iblk1 V c 2 t) (iblk1 V c 3 t) (ix2 p q)
      = msgArr (srcRows V c) (dstRows V c) (weights V c) (biasRow V c) (((cfg1.win 4).blk t).view.emb (ix2 p q))
  rw [hrow]
  exact block_entry (iblk1 V c 0 t) (iblk1 V c 1 t) (iblk1 V c 2 t) (iblk1 V c 3 t)
    (srcRows V c) (dstRows V c) (weights V c) (biasRow V c) p q ⟨t.val * 8000 + p.val, by omega⟩
    (fun k => read_rows0 V c t p k _ rfl) (fun k => read_rows1 V c t p k _ rfl) (fun k => read_weights V c t k q) (read_bias V c t q)

/-- An index of the result array is in point `t`'s block iff each coordinate is in the block's range on its axis. -/
theorem mem_blk (t : Fin cfg1.N) (i : S800000x128.Idx) :
    i ∈ ((cfg1.win 4).blk t).view.set ↔ ∀ a : Fin 2, win1_4.index t a * S8000x128.size a ≤ (i a).val
      ∧ (i a).val < win1_4.index t a * S8000x128.size a + S8000x128.size a := by
  show i ∈ ((View.whole main_v18).slice (win1_4.rect t)).set ↔ _
  rw [View.set_slice_whole, Rect.mem_set_unit]
  exact Iff.rfl

/-- The blocks tile the array: row `r` is in block `r / 8000`. -/
theorem cover (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  let t : Fin cfg1.N := ⟨(i 0).val / 8000, lt_of_lt_of_eq (by omega : (i 0).val / 8000 < 100) N_1.symm⟩
  obtain ⟨-, -, -, -, -, -, -, -, e0, e1⟩ := idx_facts t
  have e0' : win1_4.index t (0 : Fin 2) = (i 0).val / 8000 := e0
  refine ⟨t, flush1_4 t, ?_⟩
  rw [mem_blk]
  intro a
  match a with
  | ⟨0, _⟩ => show win1_4.index t (0 : Fin 2) * 8000 ≤ (i 0).val ∧ (i 0).val < win1_4.index t (0 : Fin 2) * 8000 + 8000; omega
  | ⟨1, _⟩ => show win1_4.index t (1 : Fin 2) * 128 ≤ (i 1).val ∧ (i 1).val < win1_4.index t (1 : Fin 2) * 128 + 128; omega

/-- THE RESULT ARRAY after the launch: the message array of the arrays the launch found. -/
theorem arr_eq (c : Dev nD) :
    (dat1 V c).arrAt 4 cfg1.N = msgArr (srcRows V c) (dstRows V c) (weights V c) (biasRow V c) :=
  (dat1 V c).arrAt_eq_of_cover 4 _ (fun t _ => flushed_eq V c t) cover

end Cert.KernelIdeal.Region1

end
-- ==== Proof.Region2.lean ====
/-
  The message array launch 2 leaves, as one function of the arrays it finds.

  The launch walks 100 grid points. Point `t` reads rows `8000·t … 8000·t + 7999` of the two gathered-row arrays, the
  whole weight matrix and the one-row bias, and writes back the same rows of the result: entry `(p, q)` of its block
  is `∑ k, (xs (p, k) - xd (p, k)) · wt (k, q) + b (0, q)` of the loaded blocks, which is entry
  `(8000·t + p, q)` of `Cert.Spec.msgArr` of the whole arrays. The 100 blocks tile the 800000 rows (row `r` is in
  block `r / 8000`), so after the launch the result array is `msgArr` of the arrays the launch found.
-/
import proofs.«430844_j22960895165048_1_alg».proof.Proof.Gen.KernelIdeal.Frame
import proofs.«430844_j22960895165048_1_alg».proof.Proof.Payload
import proofs.«430844_j22960895165048_1_alg».proof.Proof.Spec
import Idealize.ShloMosaic.Lib.Pipeline.Value

set_option maxRecDepth 16384

noncomputable section

namespace Cert.KernelIdeal.Region2

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)
open Cert.Spec (msgArr msgAt)

variable (V : (c : Dev nD) → (b : Ref sig .tc) → Buf (Elt Ideal) ((c : Thread nD τ).loc b))

/-- The four arrays the launch reads, at their literal types. -/
abbrev srcRows (c : Dev nD) : FVec Ideal S800000x128 .f32 := V c main_v22
abbrev dstRows (c : Dev nD) : FVec Ideal S800000x128 .f32 := V c main_v23
abbrev weights (c : Dev nD) : FVec Ideal S128x128 .bf16 := V c main_v25
abbrev biasRow (c : Dev nD) : FVec Ideal S1x128 .f32 := V c main_v26

theorem hz : (![0, 0] : Fin 2 → Nat) = fun _ => 0 := funext fun a => by fin_cases a <;> rfl

/-- The printed index maps, decided over the grid: the row windows are at block `t`, the matrix and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's stored block at `(p, q)`, when its loaded blocks are rows `8000·t + p` of two arrays, a whole matrix and a
    whole one-row bias: the message entry `(8000·t + p, q)`. -/
theorem block_entry (x0 x1 : FVec Ideal S8000x128 .f32) (x2 : FVec Ideal S128x128 .bf16) (x3 : FVec Ideal S1x128 .f32)
    (hs hd : S800000x128.Idx → EReal) (wt : S128x128.Idx → EReal) (br : S1x128.Idx → EReal)
    (p : Fin 8000) (q : Fin 128) (e : Fin 800000)
    (h0 : ∀ k : Fin 128, x0 (ix2 p k) = hs (ix2 e k)) (h1 : ∀ k : Fin 128, x1 (ix2 p k) = hd (ix2 e k))
    (h2 : ∀ k : Fin 128, x2 (ix2 k q) = wt (ix2 k q)) (h3 : x3 (ix2 (0 : Fin 1) q) = br (ix2 (0 : Fin 1) q)) :
    k2_pay1 (F := Ideal) x0 x1 x2 x3 (ix2 p q) = msgAt hs hd wt br e q := by
  rw [pay_apply2, h3]
  unfold msgAt
  congr 1
  exact Finset.sum_congr rfl fun k _ => by rw [h0 k, h1 k, h2 k]

/-- Rows `8000·t + p` of a row window's array are row `p` of its block at point `t`. -/
theorem read_rows0 (c : Dev nD) (t : Fin cfg2.N) (p : Fin 8000) (k : Fin 128) (e : Fin 800000) (he : e.val = t.val * 8000 + p.val) :
    iblk2 V c 0 t (ix2 p k) = srcRows V c (ix2 e k) := by
  obtain ⟨e0, e1, -⟩ := idx_facts t
  show V c (Pipeline.arrRef spec2 0) (((cfg2.win 0).blk t).view.emb (ix2 p k)) = V c main_v22 (ix2 e k)
  refine congrArg (V c main_v22) ?_
  funext a; apply Fin.ext
  match a with
  | ⟨0, _⟩ => show win2_0.index t (0 : Fin 2) * 8000 + 1 * p.val = e.val; omega
  | ⟨1, _⟩ => show win2_0.index t (1 : Fin 2) * 128 + 1 * k.val = k.val; omega

theorem read_rows1 (c : Dev nD) (t : Fin cfg2.N) (p : Fin 8000) (k : Fin 128) (e : Fin 800000) (he : e.val = t.val * 8000 + p.val) :
    iblk2 V c 1 t (ix2 p k) = dstRows V c (ix2 e k) := by
  obtain ⟨-, -, e0, e1, -⟩ := idx_facts t
  show V c (Pipeline.arrRef spec2 1) (((cfg2.win 1).blk t).view.emb (ix2 p k)) = V c main_v23 (ix2 e k)
  refine congrArg (V c main_v23) ?_
  funext a; apply Fin.ext
  match a with
  | ⟨0, _⟩ => show win2_1.index t (0 : Fin 2) * 8000 + 1 * p.val = e.val; omega
  | ⟨1, _⟩ => show win2_1.index t (1 : Fin 2) * 128 + 1 * k.val = k.val; omega

/-- The matrix window's one block is the whole matrix. -/
theorem read_weights (c : Dev nD) (t : Fin cfg2.N) (k q : Fin 128) :
    iblk2 V c 2 t (ix2 k q) = weights V c (ix2 k q) := by
  obtain ⟨-, -, -, -, e0, e1, -⟩ := idx_facts t
  show V c (Pipeline.arrRef spec2 2) (((cfg2.win 2).blk t).view.emb (ix2 k q)) = V c main_v25 (ix2 k q)
  refine congrArg (V c main_v25) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- The bias window's one block is the whole one-row bias. -/
theorem read_bias (c : Dev nD) (t : Fin cfg2.N) (q : Fin 128) :
    iblk2 V c 3 t (ix2 (0 : Fin 1) q) = biasRow V c (ix2 (0 : Fin 1) q) := by
  obtain ⟨-, -, -, -, -, -, e0, e1, -⟩ := idx_facts t
  show V c (Pipeline.arrRef spec2 3) (((cfg2.win 3).blk t).view.emb (ix2 (0 : Fin 1) q)) = V c main_v26 (ix2 (0 : Fin 1) q)
  refine congrArg (V c main_v26) ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- WHAT POINT `t` WRITES BACK is block `t` of the message array of the arrays the launch found. -/
theorem flushed_eq (c : Dev nD) (t : Fin cfg2.N) :
    (dat2 V c).flushed 4 t
      = ((cfg2.win 4).blk t).view.read (Elt Ideal) (msgArr (srcRows V c) (dstRows V c) (weights V c) (biasRow V c)) := by
  show (cfg2.win 4).cut (grid2.coords t) ((dat2 V c).after 4 t) = _
  rw [after2_4]
  unfold out2_4
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  obtain ⟨-, -, -, -, -, -, -, -, e0, e1⟩ := idx_facts t
  have hp : p.val < 8000 := p.isLt
  have ht : t.val < 100 := lt_of_lt_of_eq t.isLt N_2
  have hrow : ((cfg2.win 4).blk t).view.emb (ix2 p q) = ix2 (⟨t.val * 8000 + p.val, by omega⟩ : Fin 800000) q := by
    funext a; apply Fin.ext
    match a with
    | ⟨0, _⟩ => show win2_4.index t (0 : Fin 2) * 8000 + 1 * p.val = t.val * 8000 + p.val; omega
    | ⟨1, _⟩ => show win2_4.index t (1 : Fin 2) * 128 + 1 * q.val = q.val; omega
  show k2_pay1 (F := Ideal) (iblk2 V c 0 t) (iblk2 V c 1 t) (iblk2 V c 2 t) (iblk2 V c 3 t) (ix2 p q)
      = msgArr (srcRows V c) (dstRows V c) (weights V c) (biasRow V c) (((cfg2.win 4).blk t).view.emb (ix2 p q))
  rw [hrow]
  exact block_entry (iblk2 V c 0 t) (iblk2 V c 1 t) (iblk2 V c 2 t) (iblk2 V c 3 t)
    (srcRows V c) (dstRows V c) (weights V c) (biasRow V c) p q ⟨t.val * 8000 + p.val, by omega⟩
    (fun k => read_rows0 V c t p k _ rfl) (fun k => read_rows1 V c t p k _ rfl) (fun k => read_weights V c t k q) (read_bias V c t q)

/-- An index of the result array is in point `t`'s block iff each coordinate is in the block's range on its axis. -/
theorem mem_blk (t : Fin cfg2.N) (i : S800000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v27).slice (win2_4.rect t)).set ↔ _
  rw [View.set_slice_whole, Rect.mem_set_unit]
  exact Iff.rfl

/-- The blocks tile the array: row `r` is in block `r / 8000`. -/
theorem cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  let t : Fin cfg2.N := ⟨(i 0).val / 8000, lt_of_lt_of_eq (by omega : (i 0).val / 8000 < 100) N_2.symm⟩
  obtain ⟨-, -, -, -, -, -, -, -, e0, e1⟩ := idx_facts t
  have e0' : win2_4.index t (0 : Fin 2) = (i 0).val / 8000 := e0
  refine ⟨t, flush2_4 t, ?_⟩
  rw [mem_blk]
  intro a
  match a with
  | ⟨0, _⟩ => show win2_4.index t (0 : Fin 2) * 8000 ≤ (i 0).val ∧ (i 0).val < win2_4.index t (0 : Fin 2) * 8000 + 8000; omega
  | ⟨1, _⟩ => show win2_4.index t (1 : Fin 2) * 128 ≤ (i 1).val ∧ (i 1).val < win2_4.index t (1 : Fin 2) * 128 + 128; omega

/-- THE RESULT ARRAY after the launch: the message array of the arrays the launch found. -/
theorem arr_eq (c : Dev nD) :
    (dat2 V c).arrAt 4 cfg2.N = msgArr (srcRows V c) (dstRows V c) (weights V c) (biasRow V c) :=
  (dat2 V c).arrAt_eq_of_cover 4 _ (fun t _ => flushed_eq V c t) cover

end Cert.KernelIdeal.Region2

end
-- ==== Proof.KernelValue.lean ====
/-
  The result of the program with three launches, as the filling layer applied three times.

  The buffer contents at the boundaries of @main's segments are a fold from the launch memory: a stretch of host
  operations applies its operations, a launch replaces its result array by what its write-backs leave and keeps every
  other buffer. Walking the fold: the first stretch prepares the gathered rows, weights and bias of layer 1 from the
  arguments; launch 0 leaves layer 1's messages (`Cert.Spec.msgArr`); the next stretch sums them per target node, which
  makes layer 1's table, and prepares layer 2 from it; and so on to the last stretch, which sums layer 3's messages. The
  ids, cut from the edge list by the first stretch, and the later layers' weights and biases are carried through
  unchanged. So the result buffer ends at `layerFill` applied three times to the arguments.
-/
import proofs.«430844_j22960895165048_1_alg».proof.Proof.Gen.KernelIdeal.Frame
import proofs.«430844_j22960895165048_1_alg».proof.Proof.Stages
import proofs.«430844_j22960895165048_1_alg».proof.Proof.Region0
import proofs.«430844_j22960895165048_1_alg».proof.Proof.Region1
import proofs.«430844_j22960895165048_1_alg».proof.Proof.Region2

set_option maxRecDepth 16384

noncomputable section

namespace Cert.KernelIdeal.KernelValue

open Cert.KernelIdeal Cert.KernelIdeal.Gen Cert.KernelIdeal.Stages Cert.Spec
open Idealize.ShloMosaic Idealize.ShloMosaic.TcCoe Idealize.ShloMosaic.StableHlo Idealize.SL.Sem

/-- Three filling layers over the argument arrays. -/
def threeFill (x : FVec Ideal SN .f32) (W1 : FVec Ideal SW .f32) (b1 : FVec Ideal SB .f32) (W2 : FVec Ideal SW .f32)
    (b2 : FVec Ideal SB .f32) (W3 : FVec Ideal SW .f32) (b3 : FVec Ideal SB .f32) (ei : IVec SI 32) : FVec Ideal SN .f32 :=
  layerFill (layerFill (layerFill x W1 b1 (srcOf ei) (dstOf ei)) W2 b2 (srcOf ei) (dstOf ei)) W3 b3 (srcOf ei) (dstOf ei)

variable (m : (ℓ : Loc nD τ sig) → Buf (Elt Ideal) ℓ) (ρ : Dev nD → PrngReg)

/-- The arguments at their literal types. -/
abbrev aX (c : Dev nD) : FVec Ideal SN .f32 := m ((c.tc : Thread nD τ).loc main_arg0)
abbrev aW1 (c : Dev nD) : FVec Ideal SW .f32 := m ((c.tc : Thread nD τ).loc main_arg1)
abbrev aB1 (c : Dev nD) : FVec Ideal SB .f32 := m ((c.tc : Thread nD τ).loc main_arg2)
abbrev aW2 (c : Dev nD) : FVec Ideal SW .f32 := m ((c.tc : Thread nD τ).loc main_arg3)
abbrev aB2 (c : Dev nD) : FVec Ideal SB .f32 := m ((c.tc : Thread nD τ).loc main_arg4)
abbrev aW3 (c : Dev nD) : FVec Ideal SW .f32 := m ((c.tc : Thread nD τ).loc main_arg5)
abbrev aB3 (c : Dev nD) : FVec Ideal SB .f32 := m ((c.tc : Thread nD τ).loc main_arg6)
abbrev aE (c : Dev nD) : IVec SI 32 := m ((c.tc : Thread nD τ).loc main_arg7)
/-- The edges' ids. -/
abbrev src (c : Dev nD) : IVec SE 32 := srcOf (aE m c)
abbrev dst (c : Dev nD) : IVec SE 32 := dstOf (aE m c)
/-- The node tables after layers 1 and 2. -/
abbrev h1 (c : Dev nD) : FVec Ideal SN .f32 := layerFill (aX m c) (aW1 m c) (aB1 m c) (src m c) (dst m c)
abbrev h2 (c : Dev nD) : FVec Ideal SN .f32 := layerFill (h1 m c) (aW2 m c) (aB2 m c) (src m c) (dst m c)

/-! ## Launch 0's entry and exit -/

theorem W4_srcRows (c : Dev nD) : W4 m ρ c (Proc.devRef .tc main_v4) = takeFill (F := Ideal) (aX m c) (src m c) := entry0_srcRows (W0 m ρ c)
theorem W4_dstRows (c : Dev nD) : W4 m ρ c (Proc.devRef .tc main_v5) = takeFill (F := Ideal) (aX m c) (dst m c) := entry0_dstRows (W0 m ρ c)
theorem W4_weights (c : Dev nD) : W4 m ρ c (Proc.devRef .tc main_v7) = wT (F := Ideal) (aW1 m c) := entry0_weights (W0 m ρ c)
theorem W4_bias (c : Dev nD) : W4 m ρ c (Proc.devRef .tc main_v8) = bRow (F := Ideal) (aB1 m c) := entry0_bias (W0 m ρ c)
theorem W4_src (c : Dev nD) : W4 m ρ c (Proc.devRef .tc main_v1) = src m c := entry0_src (W0 m ρ c)
theorem W4_dst (c : Dev nD) : W4 m ρ c (Proc.devRef .tc main_v3) = dst m c := entry0_dst (W0 m ρ c)
theorem W4_arg3 (c : Dev nD) : W4 m ρ c (Proc.devRef .tc main_arg3) = aW2 m c := entry0_arg3 (W0 m ρ c)
theorem W4_arg4 (c : Dev nD) : W4 m ρ c (Proc.devRef .tc main_arg4) = aB2 m c := entry0_arg4 (W0 m ρ c)
theorem W4_arg5 (c : Dev nD) : W4 m ρ c (Proc.devRef .tc main_arg5) = aW3 m c := entry0_arg5 (W0 m ρ c)
theorem W4_arg6 (c : Dev nD) : W4 m ρ c (Proc.devRef .tc main_arg6) = aB3 m c := entry0_arg6 (W0 m ρ c)

/-- Launch 0 leaves layer 1's messages. -/
theorem W5_msg (c : Dev nD) : W5 m ρ c (Proc.devRef .tc main_v9)
    = msgArr (takeFill (F := Ideal) (aX m c) (src m c)) (takeFill (F := Ideal) (aX m c) (dst m c)) (wT (F := Ideal) (aW1 m c)) (bRow (F := Ideal) (aB1 m c)) := by
  refine (W5_arr m ρ c 4).trans ((Region0.arr_eq (V4 m ρ) c).trans ?_)
  show msgArr (W4 m ρ c (Proc.devRef .tc main_v4)) (W4 m ρ c (Proc.devRef .tc main_v5)) (W4 m ρ c (Proc.devRef .tc main_v7)) (W4 m ρ c (Proc.devRef .tc main_v8)) = _
  rw [W4_srcRows, W4_dstRows, W4_weights, W4_bias]
theorem W5_src (c : Dev nD) : W5 m ρ c (Proc.devRef .tc main_v1) = src m c := (W5_of_ne m ρ c main_v1 (by decide)).trans (W4_src m ρ c)
theorem W5_dst (c : Dev nD) : W5 m ρ c (Proc.devRef .tc main_v3) = dst m c := (W5_of_ne m ρ c main_v3 (by decide)).trans (W4_dst m ρ c)
theorem W5_arg3 (c : Dev nD) : W5 m ρ c (Proc.devRef .tc main_arg3) = aW2 m c := (W5_of_ne m ρ c main_arg3 (by decide)).trans (W4_arg3 m ρ c)
theorem W5_arg4 (c : Dev nD) : W5 m ρ c (Proc.devRef .tc main_arg4) = aB2 m c := (W5_of_ne m ρ c main_arg4 (by decide)).trans (W4_arg4 m ρ c)
theorem W5_arg5 (c : Dev nD) : W5 m ρ c (Proc.devRef .tc main_arg5) = aW3 m c := (W5_of_ne m ρ c main_arg5 (by decide)).trans (W4_arg5 m ρ c)
theorem W5_arg6 (c : Dev nD) : W5 m ρ c (Proc.devRef .tc main_arg6) = aB3 m c := (W5_of_ne m ρ c main_arg6 (by decide)).trans (W4_arg6 m ρ c)

/-! ## Launch 1's entry and exit -/

/-- The messages of layer 1 summed per target are layer 1's table. -/
theorem table1 (c : Dev nD) : segSum (F := Ideal) (W5 m ρ c (Proc.devRef .tc main_v3)) (W5 m ρ c (Proc.devRef .tc main_v9)) = h1 m c := by
  rw [W5_dst, W5_msg]; rfl

theorem W9_srcRows (c : Dev nD) : W9 m ρ c (Proc.devRef .tc main_v13) = takeFill (F := Ideal) (h1 m c) (src m c) := by
  refine (entry1_srcRows (W5 m ρ c)).trans ?_
  rw [table1, W5_src]
theorem W9_dstRows (c : Dev nD) : W9 m ρ c (Proc.devRef .tc main_v14) = takeFill (F := Ideal) (h1 m c) (dst m c) := by
  refine (entry1_dstRows (W5 m ρ c)).trans ?_
  rw [table1, W5_dst]
theorem W9_weights (c : Dev nD) : W9 m ρ c (Proc.devRef .tc main_v16) = wT (F := Ideal) (aW2 m c) := by
  refine (entry1_weights (W5 m ρ c)).trans ?_
  rw [W5_arg3]
theorem W9_bias (c : Dev nD) : W9 m ρ c (Proc.devRef .tc main_v17) = bRow (F := Ideal) (aB2 m c) := by
  refine (entry1_bias (W5 m ρ c)).trans ?_
  rw [W5_arg4]
theorem W9_src (c : Dev nD) : W9 m ρ c (Proc.devRef .tc main_v1) = src m c := (entry1_src (W5 m ρ c)).trans (W5_src m ρ c)
theorem W9_dst (c : Dev nD) : W9 m ρ c (Proc.devRef .tc main_v3) = dst m c := (entry1_dst (W5 m ρ c)).trans (W5_dst m ρ c)
theorem W9_arg5 (c : Dev nD) : W9 m ρ c (Proc.devRef .tc main_arg5) = aW3 m c := (entry1_arg5 (W5 m ρ c)).trans (W5_arg5 m ρ c)
theorem W9_arg6 (c : Dev nD) : W9 m ρ c (Proc.devRef .tc main_arg6) = aB3 m c := (entry1_arg6 (W5 m ρ c)).trans (W5_arg6 m ρ c)

/-- Launch 1 leaves layer 2's messages. -/
theorem W10_msg (c : Dev nD) : W10 m ρ c (Proc.devRef .tc main_v18)
    = msgArr (takeFill (F := Ideal) (h1 m c) (src m c)) (takeFill (F := Ideal) (h1 m c) (dst m c)) (wT (F := Ideal) (aW2 m c)) (bRow (F := Ideal) (aB2 m c)) := by
  refine (W10_arr m ρ c 4).trans ((Region1.arr_eq (V9 m ρ) c).trans ?_)
  show msgArr (W9 m ρ c (Proc.devRef .tc main_v13)) (W9 m ρ c (Proc.devRef .tc main_v14)) (W9 m ρ c (Proc.devRef .tc main_v16)) (W9 m ρ c (Proc.devRef .tc main_v17)) = _
  rw [W9_srcRows, W9_dstRows, W9_weights, W9_bias]
theorem W10_src (c : Dev nD) : W10 m ρ c (Proc.devRef .tc main_v1) = src m c := (W10_of_ne m ρ c main_v1 (by decide)).trans (W9_src m ρ c)
theorem W10_dst (c : Dev nD) : W10 m ρ c (Proc.devRef .tc main_v3) = dst m c := (W10_of_ne m ρ c main_v3 (by decide)).trans (W9_dst m ρ c)
theorem W10_arg5 (c : Dev nD) : W10 m ρ c (Proc.devRef .tc main_arg5) = aW3 m c := (W10_of_ne m ρ c main_arg5 (by decide)).trans (W9_arg5 m ρ c)
theorem W10_arg6 (c : Dev nD) : W10 m ρ c (Proc.devRef .tc main_arg6) = aB3 m c := (W10_of_ne m ρ c main_arg6 (by decide)).trans (W9_arg6 m ρ c)

/-! ## Launch 2's entry and exit -/

theorem table2 (c : Dev nD) : segSum (F := Ideal) (W10 m ρ c (Proc.devRef .tc main_v3)) (W10 m ρ c (Proc.devRef .tc main_v18)) = h2 m c := by
  rw [W10_dst, W10_msg]; rfl

theorem W14_srcRows (c : Dev nD) : W14 m ρ c (Proc.devRef .tc main_v22) = takeFill (F := Ideal) (h2 m c) (src m c) := by
  refine (entry2_srcRows (W10 m ρ c)).trans ?_
  rw [table2, W10_src]
theorem W14_dstRows (c : Dev nD) : W14 m ρ c (Proc.devRef .tc main_v23) = takeFill (F := Ideal) (h2 m c) (dst m c) := by
  refine (entry2_dstRows (W10 m ρ c)).trans ?_
  rw [table2, W10_dst]
theorem W14_weights (c : Dev nD) : W14 m ρ c (Proc.devRef .tc main_v25) = wT (F := Ideal) (aW3 m c) := by
  refine (entry2_weights (W10 m ρ c)).trans ?_
  rw [W10_arg5]
theorem W14_bias (c : Dev nD) : W14 m ρ c (Proc.devRef .tc main_v26) = bRow (F := Ideal) (aB3 m c) := by
  refine (entry2_bias (W10 m ρ c)).trans ?_
  rw [W10_arg6]
theorem W14_dst (c : Dev nD) : W14 m ρ c (Proc.devRef .tc main_v3) = dst m c := (entry2_dst (W10 m ρ c)).trans (W10_dst m ρ c)

/-- Launch 2 leaves layer 3's messages. -/
theorem W15_msg (c : Dev nD) : W15 m ρ c (Proc.devRef .tc main_v27)
    = msgArr (takeFill (F := Ideal) (h2 m c) (src m c)) (takeFill (F := Ideal) (h2 m c) (dst m c)) (wT (F := Ideal) (aW3 m c)) (bRow (F := Ideal) (aB3 m c)) := by
  refine (W15_arr m ρ c 4).trans ((Region2.arr_eq (V14 m ρ) c).trans ?_)
  show msgArr (W14 m ρ c (Proc.devRef .tc main_v22)) (W14 m ρ c (Proc.devRef .tc main_v23)) (W14 m ρ c (Proc.devRef .tc main_v25)) (W14 m ρ c (Proc.devRef .tc main_v26)) = _
  rw [W14_srcRows, W14_dstRows, W14_weights, W14_bias]
theorem W15_dst (c : Dev nD) : W15 m ρ c (Proc.devRef .tc main_v3) = dst m c := (W15_of_ne m ρ c main_v3 (by decide)).trans (W14_dst m ρ c)

/-! ## The result -/

/-- THE RESULT BUFFER at the last boundary: three filling layers of the arguments. -/
theorem result_eq (c : Dev nD) : W16 m ρ c (Proc.devRef .tc main_v30)
    = threeFill (aX m c) (aW1 m c) (aB1 m c) (aW2 m c) (aB2 m c) (aW3 m c) (aB3 m c) (aE m c) := by
  refine (exit3_result (W15 m ρ c)).trans ?_
  rw [W15_dst, W15_msg]; rfl

end Cert.KernelIdeal.KernelValue

end
-- ==== Proof.RefValue.lean ====
/-
  The reference's result as the plain layer function applied three times.

  The reference's run ends with its result at the composed term of its host operations. Read from the inside out that
  term is three graph layers, each gathering the rows of the previous table at the wrapped source and target ids,
  taking their difference through one whole product with the transposed weights, adding the bias and summing the
  messages per target: `Cert.Spec.layerPlain`, with the first layer's table the node features.
-/
import proofs.«430844_j22960895165048_1_alg».proof.Proof.Gen.ReferenceIdeal.Run
import proofs.«430844_j22960895165048_1_alg».proof.Proof.Spec

noncomputable section

namespace Cert.ReferenceIdeal.RefValue

open Cert.ReferenceIdeal Cert.ReferenceIdeal.Gen Idealize.ShloMosaic Idealize.ShloMosaic.TcCoe Idealize.SL.Sem
open Cert.Spec

/-- Three plain layers over the argument arrays. -/
def threePlain (x : FVec Ideal SN .f32) (W1 : FVec Ideal SW .f32) (b1 : FVec Ideal SB .f32) (W2 : FVec Ideal SW .f32)
    (b2 : FVec Ideal SB .f32) (W3 : FVec Ideal SW .f32) (b3 : FVec Ideal SB .f32) (ei : IVec SI 32) : FVec Ideal SN .f32 :=
  layerPlain (layerPlain (layerPlain x W1 b1 (srcOf ei) (dstOf ei)) W2 b2 (srcOf ei) (dstOf ei)) W3 b3 (srcOf ei) (dstOf ei)

set_option maxRecDepth 8192 in
/-- The reference's composed term is the three plain layers of its arguments. -/
theorem res_eq (m : (ℓ : Loc nD τ sig) → Buf (Elt Ideal) ℓ) (c : Dev nD) :
    Cert.ReferenceIdeal.Value.res_out0 (F := Ideal) m c
      = threePlain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  show Cert.ReferenceIdeal.Value.res_main_v72 m c = _
  unfold Cert.ReferenceIdeal.Value.res_main_v72 threePlain
  rfl

end Cert.ReferenceIdeal.RefValue

end
-- ==== Proof.LibPoint.lean ====
import Idealize.ShloMosaic.Lib.ValueIdx
import Idealize.ShloMosaic.PureOps.ShapeOps
import Idealize.ShloMosaic.PureOps.Dims
import Idealize.ShloMosaic.PureOps.Contract

/-!
  Two reads of host operations at an index.

  * A `stablehlo.gather` of SINGLE ELEMENTS of a table `[U, V]`: both operand axes collapsed and named by the start index
    map, the start indices an `[K, 2]` array (one pair of words per result element), the result a vector `[K]`. Result
    element `k` is the table at the pair's two words, each read signed and clamped into its axis.
  * A reduction by `and` of an `i1` array `[K, 1]` along its unit axis, from an initial 1: where the one element of row
    `k` is 1, the result at `k` is 1.
-/

namespace Cert.LibPoint

open Idealize.ShloMosaic Idealize.ShloMosaic.ValueIdx

/-- A word read signed and clamped into an axis of extent `U`. -/
def clampTo {w : Nat} (U : Nat) (hU : 0 < U) (z : BitVec w) : Fin U := ⟨min z.toInt.toNat (U - 1), by omega⟩

theorem clampTo_val {w : Nat} (U : Nat) (hU : 0 < U) (z : BitVec w) : (clampTo U hU z).val = min z.toInt.toNat (U - 1) := rfl

/-- The gather of single elements: result element `k` is the table at row `k`'s two start words, clamped. -/
theorem gather_point {α : Type} {U V K w : Nat} (d : GatherDims ⟨2, ![U, V]⟩ ⟨2, ![K, 2]⟩ ⟨1, ![K]⟩)
    (hod : d.offsetDims = []) (hcoll : d.collapsedSliceDims = [0, 1]) (hob : d.operandBatchingDims = [])
    (hsim : d.startIndexMap = [0, 1]) (hivd : d.indexVectorDim = 1) (hU : 0 < U) (hV : 0 < V)
    (x : (⟨2, ![U, V]⟩ : Shape).Idx → α) (idx : IVec ⟨2, ![K, 2]⟩ w) (k : Fin K) :
    Host.gather d x idx (ix1 k) = x (ix2 (clampTo U hU (idx (ix2 k 0))) (clampTo V hV (idx (ix2 k 1)))) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sm, iv, ss, wf⟩ := d
  dsimp only at hod hcoll hob hsim hivd hsl0 hsl1
  subst hod hcoll hob hsim hivd
  unfold Host.gather
  congr 1
  funext a
  refine Fin.ext ?_
  match a with
  | ⟨0, _⟩ =>
    -- the row axis: collapsed and start-indexed, so the coordinate is the clamped first word alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 List.mem_cons_self)]
    unfold GatherDims.start
    rw [dif_pos List.mem_cons_self]
    show min (idx _).toInt.toNat (U - ss 0) = min (idx (ix2 k 0)).toInt.toNat (U - 1)
    rw [hsl0]
    -- the first word is read at the result's one batch coordinate, component 0
    refine congrArg (fun v => min (idx v).toInt.toNat (U - 1)) ?_
    funext q
    refine Fin.ext ?_
    match q with
    | ⟨0, _⟩ => rfl
    | ⟨1, _⟩ => rfl
  | ⟨1, _⟩ =>
    -- the column axis: collapsed and start-indexed too, the clamped second word alone
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    unfold GatherDims.start
    rw [dif_pos (List.mem_cons_of_mem _ (List.mem_singleton.mpr rfl))]
    show min (idx _).toInt.toNat (V - ss 1) = min (idx (ix2 k 1)).toInt.toNat (V - 1)
    rw [hsl1]
    -- the second word is read at the result's one batch coordinate, component 1
    refine congrArg (fun v => min (idx v).toInt.toNat (V - 1)) ?_
    funext q
    refine Fin.ext ?_
    match q with
    | ⟨0, _⟩ => rfl
    | ⟨1, _⟩ => rfl

/-- A left fold by `and` from 1 over `i1` words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self]
    exact foldl_andi_ones f l fun n hn => hl n (List.mem_cons_of_mem _ hn)

/-- The only index of `[K, 1]` that drops to `k` along the unit axis is `(k, 0)`. -/
private theorem drops_to_row {K : Nat} (h : (⟨2, ![K, 1]⟩ : Shape).ReducesTo [1] ⟨1, ![K]⟩)
    (i : (⟨2, ![K, 1]⟩ : Shape).Idx) (k : Fin K) (hi : h.drop i = ix1 k) : i = ix2 k 0 := by
  have h0 : (h.drop i 0).val = k.val := by rw [hi]; rfl
  funext a
  refine Fin.ext ?_
  match a with
  | ⟨0, _⟩ => exact h0
  | ⟨1, _⟩ => exact Nat.lt_one_iff.1 (i 1).isLt

/-- The and-reduction along a unit axis, from 1: 1 where the row's element is 1. -/
theorem reduce_andi_unit {K : Nat} (x : (⟨2, ![K, 1]⟩ : Shape).Idx → BitVec 1) (init : (⟨0, ![]⟩ : Shape).Idx → BitVec 1)
    (h : (⟨2, ![K, 1]⟩ : Shape).ReducesTo [1] ⟨1, ![K]⟩) (hu : 0 < (⟨0, ![]⟩ : Shape).numel) (k : Fin K)
    (hinit : ∀ i, init i = 1#1) (hx : x (ix2 k 0) = 1#1) : Host.reduce IntOp.andi x init h hu (ix1 k) = 1#1 := by
  unfold Host.reduce
  rw [hinit]
  refine foldl_andi_ones _ _ fun n hn => ?_
  rw [drops_to_row h _ k (of_decide_eq_true (List.mem_filter.1 hn).2)]
  exact hx

end Cert.LibPoint
-- ==== Proof.Mask.lean ====
/-
  The in-table mask of a wrapped id, element by element.

  An id `z` (a 32-bit word read signed) is wrapped by adding `50000` when it is negative; the mask asks whether the
  wrapped id lies in `[0, 49999]`. For `-50000 ≤ z < 50000` it does: a negative `z ≥ -50000` wraps to `z + 50000`
  in `[0, 49999]` with no overflow, and a non-negative one is kept. A non-negative id is its own wrap.
-/
import proofs.«430844_j22960895165048_1_alg».proof.Proof.Spec
import proofs.«430844_j22960895165048_1_alg».proof.Proof.LibPoint
import Idealize.ShloMosaic.Lib.StableHlo.Predicate

noncomputable section

namespace Cert.Mask

open Idealize.ShloMosaic Idealize.ShloMosaic.ValueIdx Cert.Spec

/-- The wrap at an edge, as a choice between two words: the id plus `50000` when it is negative, else the id. Both
    constants are scalars broadcast to the vector, so they read the same word at every edge. -/
private theorem wrap_apply (i : IVec SE 32) (e : Fin 800000) :
    wrap i (ix1 e)
      = Scalar.select (IntOp.cmpi .slt (i (ix1 e)) 0#32) (IntOp.addi (i (ix1 e)) 50000#32) (i (ix1 e)) := rfl

/-- The signed "less than zero" bit is set exactly when the word read signed is negative. -/
private theorem slt_zero (z : BitVec 32) : IntOp.cmpi .slt z 0#32 = 1#1 ↔ z.toInt < 0 := by
  show BitVec.ofBool (z.slt 0#32) = 1#1 ↔ _
  rw [StableHlo.Predicate.ofBool_eq_one_iff, BitVec.slt, decide_eq_true_iff]
  rfl

/-- For `-50000 ≤ z < 0` the sum `z + 50000` does not leave the signed range: it is the integer sum. -/
private theorem toInt_add_50000 (z : BitVec 32) (h1 : -50000 ≤ z.toInt) (h2 : z.toInt < 0) :
    (z + 50000#32).toInt = z.toInt + 50000 := by
  rw [BitVec.toInt_add]
  have hc : (50000#32).toInt = 50000 := by decide
  rw [hc]
  unfold Int.bmod
  dsimp only
  split <;> omega

/-- The two range tests on a word `w` with `0 ≤ w ≤ 49999` read signed are both 1, and so is their `and`. -/
private theorem range_bits (w : BitVec 32) (h0 : 0 ≤ w.toInt) (h1 : w.toInt ≤ 49999) :
    IntOp.andi (IntOp.cmpi .sge w 0#32) (IntOp.cmpi .sle w 49999#32) = 1#1 := by
  have hz : (0#32).toInt = 0 := by decide
  have hc : (49999#32).toInt = 49999 := by decide
  have a : IntOp.cmpi .sge w 0#32 = 1#1 := by
    show BitVec.ofBool ((0#32).sle w) = 1#1
    rw [StableHlo.Predicate.ofBool_eq_one_iff, BitVec.sle, decide_eq_true_iff, hz]
    exact h0
  have b : IntOp.cmpi .sle w 49999#32 = 1#1 := by
    show BitVec.ofBool (w.sle 49999#32) = 1#1
    rw [StableHlo.Predicate.ofBool_eq_one_iff, BitVec.sle, decide_eq_true_iff, hc]
    exact h1
  rw [a, b]
  decide

/-- The column of start indices at row `e` is the vector at `e`. -/
theorem col_apply (i : IVec SE 32) (e : Fin 800000) : col i (ix2 e 0) = i (ix1 e) := by
  -- the column reads the vector at the index whose one coordinate is the row: the vector's axis is not a unit axis
  unfold col broadcastInDim
  refine congrArg i (funext fun a => Fin.ext ?_)
  match a with
  | ⟨0, _⟩ =>
    split
    · next h1 => change (800000 : Nat) = 1 at h1; omega
    · rfl

/-- A non-negative id is its own wrap. -/
theorem wrap_of_nonneg (i : IVec SE 32) (e : Fin 800000) (h : 0 ≤ (i (ix1 e)).toInt) : wrap i (ix1 e) = i (ix1 e) := by
  rw [wrap_apply]
  -- the "negative" bit is not set, so the choice keeps the id
  have hn : ¬ IntOp.cmpi .slt (i (ix1 e)) 0#32 = 1#1 := fun hc => by
    have := (slt_zero _).1 hc
    omega
  unfold Scalar.select
  exact if_neg (show ¬ IntOp.cmpi .slt (i (ix1 e)) 0#32 = 1 from hn)

/-- An id in `[-50000, 50000)` wraps into the table: its mask bit is set. -/
theorem inb_of_range (i : IVec SE 32) (e : Fin 800000)
    (h : -50000 ≤ (i (ix1 e)).toInt ∧ (i (ix1 e)).toInt < 50000) : inb (col (wrap i)) (ix1 e) = 1#1 := by
  -- the and-reduction along the unit axis is 1 where the row's one element is 1
  refine Cert.LibPoint.reduce_andi_unit _ _ red_C_E pos0 e (fun _ => rfl) ?_
  -- that element is the two range tests of the wrapped id, against constants that read the same at every index
  show IntOp.andi (IntOp.cmpi .sge (col (wrap i) (ix2 e 0)) 0#32) (IntOp.cmpi .sle (col (wrap i) (ix2 e 0)) 49999#32) = 1#1
  rw [col_apply, wrap_apply]
  obtain ⟨hlo, hhi⟩ := h
  unfold Scalar.select
  by_cases hneg : (i (ix1 e)).toInt < 0
  · -- a negative id: `z + 50000` is the integer sum, in `[0, 49999]`
    rw [if_pos (show IntOp.cmpi .slt (i (ix1 e)) 0#32 = 1 from (slt_zero _).2 hneg)]
    have hs := toInt_add_50000 _ hlo hneg
    refine range_bits _ ?_ ?_
    · show 0 ≤ (i (ix1 e) + 50000#32).toInt
      omega
    · show (i (ix1 e) + 50000#32).toInt ≤ 49999
      omega
  · -- a non-negative id below `50000` is kept
    rw [if_neg (show ¬ IntOp.cmpi .slt (i (ix1 e)) 0#32 = 1 from fun hc => hneg ((slt_zero _).1 hc))]
    exact range_bits _ (by omega) (by omega)

end Cert.Mask

end
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.Layer.lean ====
/-
  The two layer functions agree when every source id wraps into the table.

  Both sum, per target node `n` and feature `c`, the messages of the edges whose raw target id is `n`; an edge whose
  target id is outside the table adds to no node on either side. For an edge that does add, the target id is in
  `[0, 49999]`, so it is its own wrap and its mask bit is set: the filling layer reads the gathered row for the target,
  and by hypothesis also for the source. Its message entry `∑ k, (hs (e, k) - hd (e, k)) · wt (k, c) + b c` is then the
  plain layer's: the whole product read at `(e, c)` is the same sum, a change of float format is the identity on
  extended reals, and the bias read through either layout is `b c`.
-/
import proofs.«430844_j22960895165048_1_alg».proof.Proof.Spec
import proofs.«430844_j22960895165048_1_alg».proof.Proof.Mask
import proofs.«430844_j22960895165048_1_alg».proof.Proof.LibDot
import proofs.«430844_j22960895165048_1_alg».proof.Proof.LibScatterRows
import Idealize.ShloMosaic.PureOps.Ideal.Laws
import Idealize.ShloMosaic.Lib.StableHlo.Predicate
import Idealize.ShloMosaic.Lib.ValueLayout

noncomputable section

namespace Cert.Layer

open Idealize.ShloMosaic Idealize.ShloMosaic.ValueIdx Cert.Spec

/-- The mask laid along the rows of the edge-by-feature rectangle reads, at `(k, j)`, the mask at `k`. -/
private theorem mask_apply (m : IVec SE 1) (k : Fin 800000) (j : Fin 128) :
    broadcastInDim SM ![0] bc_E_M m (ix2 k j) = m (ix1 k) := by
  refine broadcastInDim_apply _ _ _ _ _ ?_
  intro a
  match a with
  | ⟨0, _⟩ => exact (if_neg (show ¬ (800000 : Nat) = 1 by decide)).symm

/-- Where the mask bit of edge `k` is set, the filled rows are the gathered rows. -/
private theorem takeFill_apply (h : FVec Ideal SN .f32) (i : IVec SE 32) (k : Fin 800000) (j : Fin 128)
    (hm : inb (col (wrap i)) (ix1 k) = 1#1) :
    takeFill h i (ix2 k j) = rowsAt h (col (wrap i)) (ix2 k j) := by
  unfold takeFill select
  rw [mask_apply, hm]
  unfold Scalar.select
  exact if_pos rfl

/-- The bias as a one-row matrix reads, at `(0, c)`, the bias at `c`. -/
private theorem bRow_apply (b : FVec Ideal SB .f32) (c : Fin 128) : bRow b (ix2 0 c) = b (ix1 c) :=
  shapeCast_a_1a_apply b castsB 0 c

/-- The bias laid along the second axis of the edge-by-feature rectangle reads, at `(k, c)`, the bias at `c`. -/
private theorem bias_apply (b : FVec Ideal SB .f32) (k : Fin 800000) (c : Fin 128) :
    broadcastInDim SM ![0, 1] bc_R_M (broadcastInDim SR ![1] bc_B_R b) (ix2 k c) = b (ix1 c) := by
  have e := StableHlo.Predicate.bcast_cols bc_B_R bc_R_M b k c
  have hi : StableHlo.Predicate.ij k c = ix2 k c := by
    funext a; match a with | ⟨0, _⟩ => rfl | ⟨1, _⟩ => rfl
  have hj : Shape.Idx.ofFin c = ix1 c := by
    funext a; match a with | ⟨0, _⟩ => rfl
  rw [hi, hj] at e
  exact e

/-- The message array read at `(k, c)` is the message entry of edge `k`, feature `c`. -/
private theorem msgArr_apply (hs hd : SM.Idx → EReal) (wt : SW.Idx → EReal) (br : SR.Idx → EReal) (k : Fin 800000) (c : Fin 128) :
    msgArr hs hd wt br (ix2 k c) = msgAt hs hd wt br k c := rfl

/-- One term of a message entry, for an edge whose two mask bits are set: the filled rows are the gathered rows, and
    the matrix in the narrower float format is the transposed matrix itself. -/
private theorem term_eq (h : FVec Ideal SN .f32) (W : FVec Ideal SW .f32) (src dst : IVec SE 32)
    (k : Fin 800000) (j c : Fin 128)
    (hs : inb (col (wrap src)) (ix1 k) = 1#1) (hd : inb (col (wrap dst)) (ix1 k) = 1#1) :
    (takeFill h src (ix2 k j) - takeFill h dst (ix2 k j)) * wT W (ix2 j c) =
      subf (rowsAt h (col (wrap src))) (rowsAt h (col (wrap dst))) (ix2 k j) * transpose SW [1, 0] W transW (ix2 j c) := by
  rw [takeFill_apply h src k j hs, takeFill_apply h dst k j hd]
  unfold subf wT truncf
  rw [Ideal.subf_def, Ideal.truncf_def]

/-- For an edge whose two mask bits are set, the filling layer's message entry is the plain layer's: the whole product
    read at `(k, c)` is the sum over the contracted feature, and the bias is `b c` through either layout. -/
private theorem msg_eq (h : FVec Ideal SN .f32) (W : FVec Ideal SW .f32) (b : FVec Ideal SB .f32) (src dst : IVec SE 32)
    (k : Fin 800000) (c : Fin 128)
    (hs : inb (col (wrap src)) (ix1 k) = 1#1) (hd : inb (col (wrap dst)) (ix1 k) = 1#1) :
    msgArr (takeFill h src) (takeFill h dst) (wT W) (bRow b) (ix2 k c) =
      addf (Host.dotGeneral dotPlain none (subf (rowsAt h (col (wrap src))) (rowsAt h (col (wrap dst))))
          (transpose SW [1, 0] W transW))
        (broadcastInDim SM ![0, 1] bc_R_M (broadcastInDim SR ![1] bc_B_R b)) (ix2 k c) := by
  rw [msgArr_apply]
  unfold msgAt addf
  rw [Ideal.addf_def, Cert.LibDot.dotGeneral_plain_apply dotPlain rfl rfl rfl rfl rfl rfl, bias_apply, bRow_apply]
  exact congrArg (fun x => x + b (ix1 c)) (Finset.sum_congr rfl fun j _ => term_eq h W src dst k j c hs hd)

/-- The host's scatter-add at the ideal values is the ideal scatter-add. -/
private theorem scatterAdd_ideal (x : FVec Ideal SN .f32) (idx : IVec SC 32) (upd : FVec Ideal SM .f32) :
    Host.scatterAdd scatterRows x idx upd = Ideal.hostScatterAdd scatterRows x idx upd :=
  Ideal.hostScatterAdd_def scatterRows .single x idx upd

/-- The two layers read at node `n`, feature `c`: the same sum over the edges, term by term. An edge whose raw target
    id is not `n` adds nothing on either side; one whose target id is `n` has that id in `[0, 49999]`, so its target
    mask bit is set, and its source mask bit is set by hypothesis. -/
private theorem layer_apply (h : FVec Ideal SN .f32) (W : FVec Ideal SW .f32) (b : FVec Ideal SB .f32) (src dst : IVec SE 32)
    (hsrc : ∀ e : Fin 800000, inb (col (wrap src)) (ix1 e) = 1#1) (n : Fin 50000) (c : Fin 128) :
    layerFill h W b src dst (ix2 n c) = layerPlain h W b src dst (ix2 n c) := by
  unfold layerFill layerPlain segSum
  rw [scatterAdd_ideal, scatterAdd_ideal,
    Cert.LibScatterRows.scatterAdd_rows_apply scatterRows rfl rfl rfl rfl,
    Cert.LibScatterRows.scatterAdd_rows_apply scatterRows rfl rfl rfl rfl]
  refine congrArg (fun x => _ + x) (Finset.sum_congr rfl fun k _ => ?_)
  by_cases hk : (col dst (ix2 k ⟨0, Nat.one_pos⟩)).toInt = (n.val : Int)
  · rw [if_pos hk, if_pos hk]
    have hcol : col dst (ix2 k ⟨0, Nat.one_pos⟩) = dst (ix1 k) := Cert.Mask.col_apply dst k
    rw [hcol] at hk
    have hn := n.isLt
    have hd : inb (col (wrap dst)) (ix1 k) = 1#1 := Cert.Mask.inb_of_range dst k ⟨by omega, by omega⟩
    exact msg_eq h W b src dst k c (hsrc k) hd
  · rw [if_neg hk, if_neg hk]

/-- The filling layer is the plain layer when every source id's mask bit is set. -/
theorem layer_eq (h : FVec Ideal SN .f32) (W : FVec Ideal SW .f32) (b : FVec Ideal SB .f32) (src dst : IVec SE 32)
    (hsrc : ∀ e : Fin 800000, inb (col (wrap src)) (ix1 e) = 1#1) :
    layerFill h W b src dst = layerPlain h W b src dst := by
  funext i
  rw [eq_ix2 i]
  exact layer_apply h W b src dst hsrc (i 0) (i 1)

end Cert.Layer

end
-- ==== Proof.PreSrc.lean ====
/-
  What the precondition says of the source ids.

  The precondition's last conjunct is an `and`-reduction over all edges of `-50000 ≤ src ∧ src < 50000`, the source ids
  being row 0 of the edge list read as signed words. So when the precondition is all ones every source id is in that range,
  and its mask bit is set (`Cert.Mask.inb_of_range`).
-/
import proofs.«430844_j22960895165048_1_alg».proof.Pre_finite_inputs
import proofs.«430844_j22960895165048_1_alg».proof.Proof.Gen.Pre_finite_inputs
import proofs.«430844_j22960895165048_1_alg».proof.Proof.Mask
import Idealize.ShloMosaic.Lib.ReduceAll

noncomputable section

namespace Cert.PreSrc

open Idealize.ShloMosaic Idealize.ShloMosaic.ValueIdx Cert.Spec

/-- Under the precondition every source id wraps into the table. -/
theorem src_inb [Cert.Pre_finite_inputs.Facts]
    (a0 : FVec Ideal Cert.Pre_finite_inputs.S50000x128 .f32) (a1 : FVec Ideal Cert.Pre_finite_inputs.S128x128 .f32)
    (a2 : FVec Ideal Cert.Pre_finite_inputs.S128 .f32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 a8 : IVec Cert.Pre_finite_inputs.S2x800000 32)
    (hpre : Cert.Pre_finite_inputs.fn (F := Ideal) a0 a1 a2 a3 a4 a5 a6 a7 a8 = fun _ => 1#1) :
    ∀ e : Fin 800000, inb (col (wrap (srcOf a7))) (ix1 e) = 1#1 := by
  intro e
  refine Cert.Mask.inb_of_range _ e ?_
  -- the scalar result has one index
  haveI : Subsingleton Cert.Pre_finite_inputs.S_.Idx := ⟨fun a b => funext fun d => d.elim0⟩
  have h0 := congrFun hpre ix0
  -- the precondition is the `and` of the conjuncts about the float inputs (left as one word `v`) with the conjunct
  -- about the source ids
  obtain ⟨v, hv⟩ : ∃ v : IVec Cert.Pre_finite_inputs.S_ 1,
      Cert.Pre_finite_inputs.fn (F := Ideal) a0 a1 a2 a3 a4 a5 a6 a7 a8
        = Cert.Pre_finite_inputs.fn_part2 (F := Ideal) a7 v := ⟨_, rfl⟩
  rw [hv] at h0
  -- that conjunct: the and-reduction over all edges of the two range tests of the source id, the two bounds being
  -- scalars broadcast to the vector, so the same word at every edge
  have h1 : IntOp.andi (v ix0)
      (Host.reduce IntOp.andi
        (fun j : SE.Idx => IntOp.andi (IntOp.cmpi .sge (srcOf a7 j) 4294917296#32) (IntOp.cmpi .slt (srcOf a7 j) 50000#32))
        (constantI Cert.Pre_finite_inputs.S_ 1 1#1) Cert.Pre_finite_inputs.Facts.reducesTo_S800000_S_d0
        Cert.Pre_finite_inputs.Facts.h_S_ ix0) = 1#1 := h0
  -- the reduction is 1, so the tests are 1 at every edge, at `e` in particular
  have h2 := Host.reduce_andi_all _ _ _ _ _ (IntOp.andi_eq_one.1 h1).2 (ix1 e)
  obtain ⟨hge, hlt⟩ := IntOp.andi_eq_one.1 h2
  rw [IntOp.cmpi_sge] at hge
  rw [IntOp.cmpi_slt] at hlt
  -- the lower bound is the word of `-50000`
  have hlo : (4294917296#32 : BitVec 32).toInt = -50000 := by decide
  have hhi : (50000#32 : BitVec 32).toInt = 50000 := by decide
  rw [hlo] at hge
  rw [hhi] at hlt
  exact ⟨hge, hlt⟩

end Cert.PreSrc

end
-- ==== Proof.lean ====
/-
  A three-layer graph network: per layer, the message of an edge is `(h[src] - h[dst]) · Wᵀ + b` and the new table
  sums the messages per target node. One program forms the messages in a launched kernel, block by block, from rows
  gathered with a fill for ids outside the table; the reference forms them by one whole product from rows gathered
  as they are. The claim is stated under the precondition that the float inputs are finite and the source ids lie in
  `[-50000, 50000)`; only the second part is used.

  The frames of the two programs with launches are their generated frame certificates; the reference's frame is its
  generated run with the result dropped; nothing was rewritten when the program was idealized, so there is nothing to
  preserve. For the equivalence over the extended reals: the program with launches ends with its result at the filling
  layer applied three times to the arguments (`Cert.KernelIdeal.KernelValue.result_eq`, over the run of
  `Cert.KernelIdeal.RunResult.run_result`), the reference at the plain layer applied three times
  (`Cert.ReferenceIdeal.RefValue.res_eq` over its generated run), and the two layers agree whenever every source id
  wraps into the table (`Cert.Layer.layer_eq`), which the precondition says (`Cert.PreSrc.src_inb`). An edge whose
  target id is outside the table adds to no node in either program, so the target ids need no condition.
-/
import proofs.«430844_j22960895165048_1_alg».proof.Defs
import proofs.«430844_j22960895165048_1_alg».proof.Proof.Gen.Kernel
import proofs.«430844_j22960895165048_1_alg».proof.Proof.Gen.Kernel.Skeleton
import proofs.«430844_j22960895165048_1_alg».proof.Proof.Gen.Kernel.Launch
import proofs.«430844_j22960895165048_1_alg».proof.Proof.Gen.Kernel.Points
import proofs.«430844_j22960895165048_1_alg».proof.Proof.Gen.Kernel.Frame
import proofs.«430844_j22960895165048_1_alg».proof.Proof.Gen.KernelIdeal
import proofs.«430844_j22960895165048_1_alg».proof.Proof.Gen.KernelIdeal.Skeleton
import proofs.«430844_j22960895165048_1_alg».proof.Proof.Gen.KernelIdeal.Launch
import proofs.«430844_j22960895165048_1_alg».proof.Proof.Gen.KernelIdeal.Points
import proofs.«430844_j22960895165048_1_alg».proof.Proof.Gen.KernelIdeal.Frame
import proofs.«430844_j22960895165048_1_alg».proof.Proof.Gen.ReferenceIdeal
import proofs.«430844_j22960895165048_1_alg».proof.Proof.Gen.ReferenceIdeal.Run
import proofs.«430844_j22960895165048_1_alg».proof.Proof.Gen.Pre_finite_inputs
import proofs.«430844_j22960895165048_1_alg».proof.Proof.KernelIdealRun
import proofs.«430844_j22960895165048_1_alg».proof.Proof.KernelValue
import proofs.«430844_j22960895165048_1_alg».proof.Proof.RefValue
import proofs.«430844_j22960895165048_1_alg».proof.Proof.Layer
import proofs.«430844_j22960895165048_1_alg».proof.Proof.PreSrc
import Idealize.ShloMosaic.Adequacy
import Idealize.ShloMosaic.Init

noncomputable section

namespace Cert.Proof

open Idealize.ShloMosaic Idealize.ShloMosaic.ValueIdx Idealize.SL.Sem
open Cert.Spec

/-- Three filling layers are three plain layers when every source id wraps into the table. -/
theorem three_eq (x : FVec Ideal SN .f32) (W1 : FVec Ideal SW .f32) (b1 : FVec Ideal SB .f32) (W2 : FVec Ideal SW .f32)
    (b2 : FVec Ideal SB .f32) (W3 : FVec Ideal SW .f32) (b3 : FVec Ideal SB .f32) (ei : IVec SI 32)
    (hsrc : ∀ e : Fin 800000, inb (col (wrap (srcOf ei))) (ix1 e) = 1#1) :
    Cert.KernelIdeal.KernelValue.threeFill x W1 b1 W2 b2 W3 b3 ei = Cert.ReferenceIdeal.RefValue.threePlain x W1 b1 W2 b2 W3 b3 ei := by
  unfold Cert.KernelIdeal.KernelValue.threeFill Cert.ReferenceIdeal.RefValue.threePlain
  rw [Cert.Layer.layer_eq _ _ _ _ _ hsrc, Cert.Layer.layer_eq _ _ _ _ _ hsrc, Cert.Layer.layer_eq _ _ _ _ _ hsrc]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at three layers of arguments that agree, and the two kinds of layer agree under the
    precondition. -/
theorem algebraic : Cert.algebraic_KernelIdeal_ReferenceIdeal := by
  intro m ρ m' ρ' hpre hagree
  refine ⟨fun c => Cert.KernelIdeal.KernelValue.threeFill
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨((h c).1).trans (Cert.KernelIdeal.KernelValue.result_eq m ρ c), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, -⟩ := hagree c
    refine (Cert.ReferenceIdeal.RefValue.res_eq m' c).trans ?_
    rw [e0, e1, e2, e3, e4, e5, e6, e7]
    exact (three_eq _ _ _ _ _ _ _ _ (Cert.PreSrc.src_inb _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
